-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x64 .f32) (main_arg6 : FVec F S64 .f32) (main_arg7 : FVec F S64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 46
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S1x64, .f32⟩
  | .hbm, ⟨24, _⟩ => ⟨S100000x64, .f32⟩
  | .hbm, ⟨25, _⟩ => ⟨S1x64, .f32⟩
  | .hbm, ⟨26, _⟩ => ⟨S1x64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S5000x64 : S1x64.Broadcasts S5000x64
  reduces_S5000x64_S64 : S5000x64.Reduces [0] S64
  shapeCasts_S1x64_S64 : S1x64.ShapeCasts S64
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v9) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v12_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S_, .i32⟩
  | .hbm, ⟨43, _⟩ => ⟨S_, .f32⟩
  | .hbm, ⟨44, _⟩ => ⟨S64, .f32⟩
  | .hbm, ⟨45, _⟩ => ⟨S1x64, .f32⟩
  | .hbm, ⟨46, _⟩ => ⟨S_, .f32⟩
  | .hbm, ⟨47, _⟩ => ⟨S1x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_cst_1 : Ref sig .tc := ⟨.hbm, 53, rfl⟩
abbrev main_call2_v8 : Ref sig .tc := ⟨.hbm, 54, rfl⟩
abbrev main_call2_cst_2 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_cst_3 : Ref sig .tc := ⟨.hbm, 59, rfl⟩
abbrev main_call2_v12 : Ref sig .tc := ⟨.hbm, 60, rfl⟩
abbrev main_call2_cst_4 : Ref sig .tc := ⟨.hbm, 61, rfl⟩
abbrev main_call2_call0_v0 : Ref sig .tc := ⟨.hbm, 62, rfl⟩
abbrev main_call2_call0_v1 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_4 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics both programs are compared through, over plain `Fin`-indexed families of extended reals.

  A graph-convolution layer followed by a batch normalisation over the node axis.  With `agg` the neighbourhood
  sums of the node features, the pre-normalisation activation of node `r`, channel `q` is
      act r q = max (∑ₖ agg r k · W k q + b q) 0 + max (∑ₖ feats r k · Wr k q + br q) 0 .
  Per channel, with N = 100000 nodes, the mean is μ q = (∑ᵣ act r q) / N.  The two programs take the (biased) variance
  in two ways:  the one-pass form  (∑ᵣ act² ) / N − μ²   and the centred form  (∑ᵣ (act − μ)²) / N .
  Over the reals these agree (expand the square and use ∑ᵣ act = N μ); over the extended reals the identity needs every
  activation to be a real number, which holds when every float input is finite: a finite sum of finite products is
  finite, and so is a maximum with zero.  The output is  (act − μ) · rsqrt (var + ε) · γ + β  in both.
-/
import Idealize.ShloMosaic.PureOps.Ideal
import Idealize.ShloMosaic.PureOps.Ideal.Laws
import Idealize.ShloMosaic.Lib.ValueIdx
import Mathlib.Tactic.Ring
import Mathlib.Tactic.FieldSimp
import Mathlib.Tactic.NormNum

noncomputable section

namespace GcnNorm

open Idealize.ShloMosaic

/-- The node count as the program spells it: the f32 word of `100000.0`. -/
abbrev nLit : EReal := Ideal.ofBits .f32 0x47C35000#32
/-- The variance offset as the program spells it: the f32 word nearest `1e-5`. -/
abbrev epsLit : EReal := Ideal.ofBits .f32 0x3727C5AC#32

/-- The pre-normalisation activation: two linear maps, each followed by a maximum with zero, added. -/
def act (agg feats : Fin 100000 → Fin 64 → EReal) (W Wr : Fin 64 → Fin 64 → EReal) (b br : Fin 64 → EReal)
    (r : Fin 100000) (q : Fin 64) : EReal :=
  max ((∑ k : Fin 64, agg r k * W k q) + b q) 0 + max ((∑ k : Fin 64, feats r k * Wr k q) + br q) 0

/-- A channel's sum over all nodes. -/
def colSum (h : Fin 100000 → Fin 64 → EReal) (q : Fin 64) : EReal := ∑ r : Fin 100000, h r q

/-- A channel's mean. -/
def mean (h : Fin 100000 → Fin 64 → EReal) (q : Fin 64) : EReal := Ideal.div (colSum h q) nLit

/-- The one-pass variance: mean of squares minus square of mean. -/
def varK (h : Fin 100000 → Fin 64 → EReal) (q : Fin 64) : EReal :=
  Ideal.div (colSum (fun r q => h r q * h r q) q) nLit - mean h q * mean h q

/-- The centred variance: mean of squared deviations. -/
def varR (h : Fin 100000 → Fin 64 → EReal) (q : Fin 64) : EReal :=
  Ideal.div (colSum (fun r q => (h r q - mean h q) * (h r q - mean h q)) q) nLit

/-- The normalised output with the one-pass variance. -/
def outK (h : Fin 100000 → Fin 64 → EReal) (g b : Fin 64 → EReal) (r : Fin 100000) (q : Fin 64) : EReal :=
  (h r q - mean h q) * Ideal.rsqrt (varK h q + epsLit) * g q + b q

/-- The normalised output with the centred variance. -/
def outR (h : Fin 100000 → Fin 64 → EReal) (g b : Fin 64 → EReal) (r : Fin 100000) (q : Fin 64) : EReal :=
  (h r q - mean h q) * Ideal.rsqrt (varR h q + epsLit) * g q + b q

/-! ## Real-valued extended reals -/

/-- An extended real that is a real number. -/
def IsR (x : EReal) : Prop := ∃ r : ℝ, x = (r : EReal)

theorem IsR.zero : IsR 0 := ⟨0, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.max {x y : EReal} (hx : IsR x) (hy : IsR y) : IsR (max x y) := by
  rcases max_choice x y with h | h <;> rw [h] <;> assumption
theorem IsR.sum {ι : Type*} (s : Finset ι) (f : ι → EReal) (hf : ∀ i ∈ s, IsR (f i)) : IsR (∑ i ∈ s, f i) := by
  classical
  induction s using Finset.induction_on with
  | empty => simpa using IsR.zero
  | insert a s ha ih =>
    rw [Finset.sum_insert ha]
    exact (hf a (Finset.mem_insert_self a s)).add (ih fun i hi => hf i (Finset.mem_insert_of_mem hi))

/-- The sum of real numbers, each read as an extended real, is the real sum read as one. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- With finite operands every activation is a real number. -/
theorem act_isR (agg feats : Fin 100000 → Fin 64 → EReal) (W Wr : Fin 64 → Fin 64 → EReal) (b br : Fin 64 → EReal)
    (hagg : ∀ r k, IsR (agg r k)) (hfeats : ∀ r k, IsR (feats r k)) (hW : ∀ k q, IsR (W k q)) (hWr : ∀ k q, IsR (Wr k q))
    (hb : ∀ q, IsR (b q)) (hbr : ∀ q, IsR (br q)) (r : Fin 100000) (q : Fin 64) : IsR (act agg feats W Wr b br r q) := by
  unfold act
  exact ((((IsR.sum _ _ fun k _ => (hagg r k).mul (hW k q)).add (hb q)).max IsR.zero).add
    (((IsR.sum _ _ fun k _ => (hfeats r k).mul (hWr k q)).add (hbr q)).max IsR.zero))

/-! ## The two variances agree on real activations -/

/-- The node count's word denotes the real number 100000. -/
theorem nLit_eq : nLit = ((100000 : ℝ) : EReal) := by
  simp [nLit, Ideal.ofBits, Ideal.ieee, -EReal.coe_mul]; norm_num

/-- Over the reals: the mean of squares minus the square of the mean is the mean of squared deviations. -/
theorem real_var_identity {ι : Type*} (s : Finset ι) (x : ι → ℝ) (N : ℝ) (hN : N ≠ 0) (hcard : (s.card : ℝ) = N) :
    (∑ i ∈ s, x i * x i) * (1 / N) - ((∑ i ∈ s, x i) * (1 / N)) * ((∑ i ∈ s, x i) * (1 / N))
      = (∑ i ∈ s, (x i - (∑ j ∈ s, x j) * (1 / N)) * (x i - (∑ j ∈ s, x j) * (1 / N))) * (1 / N) := by
  set S := ∑ j ∈ s, x j with hS
  have e : (∑ i ∈ s, (x i - S * (1 / N)) * (x i - S * (1 / N)))
      = (∑ i ∈ s, x i * x i) - 2 * (S * (1 / N)) * S + (s.card : ℝ) * ((S * (1 / N)) * (S * (1 / N))) := by
    have : ∀ i, (x i - S * (1 / N)) * (x i - S * (1 / N)) = x i * x i - 2 * (S * (1 / N)) * x i + (S * (1 / N)) * (S * (1 / N)) := by
      intro i; ring
    simp only [this, Finset.sum_add_distrib, Finset.sum_sub_distrib, ← Finset.mul_sum, Finset.sum_const, nsmul_eq_mul, ← hS]
    ring
  rw [e, hcard]
  field_simp
  ring

/-- The same over the extended reals, for real summands and a real, nonzero count. -/
theorem ereal_var_identity {ι : Type*} (s : Finset ι) (f : ι → ℝ) (N : ℝ) (hN : N ≠ 0) (hcard : (s.card : ℝ) = N) :
    Ideal.div (∑ i ∈ s, (f i : EReal) * (f i : EReal)) (N : EReal)
        - Ideal.div (∑ i ∈ s, (f i : EReal)) (N : EReal) * Ideal.div (∑ i ∈ s, (f i : EReal)) (N : EReal)
      = Ideal.div (∑ i ∈ s, ((f i : EReal) - Ideal.div (∑ j ∈ s, (f j : EReal)) (N : EReal))
          * ((f i : EReal) - Ideal.div (∑ j ∈ s, (f j : EReal)) (N : EReal))) (N : EReal) := by
  simp only [Ideal.div_coe hN, coe_sum, ← EReal.coe_mul, ← EReal.coe_sub]
  exact congrArg (fun x : ℝ => (x : EReal)) (real_var_identity s f N hN hcard)

theorem varK_eq_varR (h : Fin 100000 → Fin 64 → EReal) (hh : ∀ r q, IsR (h r q)) (q : Fin 64) : varK h q = varR h q := by
  choose f hf using hh
  obtain rfl : h = fun r q => (f r q : EReal) := funext fun r => funext fun q => hf r q
  have hN : (100000 : ℝ) ≠ 0 := by norm_num
  unfold varK varR mean colSum
  rw [nLit_eq]
  exact ereal_var_identity Finset.univ (fun r => f r q) 100000 hN (by rw [Finset.card_univ, Fintype.card_fin]; norm_num)

theorem outK_eq_outR (h : Fin 100000 → Fin 64 → EReal) (hh : ∀ r q, IsR (h r q)) (g b : Fin 64 → EReal)
    (r : Fin 100000) (q : Fin 64) : outK h g b r q = outR h g b r q := by
  unfold outK outR
  rw [varK_eq_varR h hh q]

end GcnNorm

end
-- ==== Proof.Fin.lean ====
/-
  What the precondition gives: every entry of every float argument is a real number.

  The precondition is a conjunction, over the seven float arguments, of "every entry's absolute value is below +∞",
  each conjunct a reduction by `and` of an elementwise comparison.  An extended real whose absolute value
  max x (−x) is below +∞ is neither +∞ nor −∞.  From there the neighbourhood sums are real too: an entry of the
  gathered array is an entry of the feature array, and an entry of the scatter-added array is zero plus a finite sum
  of gathered entries.
-/
import proofs.«158067_j1219770712797_1_alg».proof.Pre_finite_inputs
import proofs.«158067_j1219770712797_1_alg».proof.Proof.Gen.Pre_finite_inputs
import proofs.«158067_j1219770712797_1_alg».proof.Proof.Spec
import Idealize.ShloMosaic.Lib.ReduceAll
import Idealize.ShloMosaic.Lib.ValueIdx
import Idealize.ShloMosaic.PureOps.Ideal.Laws

set_option maxRecDepth 16384

noncomputable section

open Idealize.ShloMosaic Idealize.ShloMosaic.ValueIdx

namespace Cert.FinV

open GcnNorm

/-- An extended real whose absolute value is below +∞ is a real number. -/
theorem isR_of_abs_lt_top (x : EReal) (h : max x (-x) < ⊤) : IsR x := by
  induction x using EReal.rec with
  | bot => simp at h
  | coe r => exact ⟨r, rfl⟩
  | top => simp at h

/-- The +∞ word denotes +∞. -/
theorem ofBits_inf : Ideal.ofBits .f32 0x7F800000#32 = (⊤ : EReal) := by
  simp [Ideal.ofBits, Ideal.ieee]

/-- One entry's comparison bit, read back. -/
theorem isR_of_bit (x : EReal) (h : Ideal.cmp .olt (max x (-x)) (Ideal.ofBits .f32 0x7F800000#32) = 1#1) : IsR x := by
  rw [ofBits_inf] at h
  apply isR_of_abs_lt_top
  unfold Ideal.cmp at h
  by_contra hn
  simp [hn] at h

instance : Subsingleton Cert.Pre_finite_inputs.S_.Idx := ⟨fun a b => funext fun d => d.elim0⟩

open Cert.Pre_finite_inputs in
/-- A whole argument's conjunct, read back: every entry is real. -/
theorem isR_of_all {s : Shape} {axes : List (Fin s.rank)} (x : FVec Ideal s .f32) (dims : Fin S_.rank → Fin s.rank)
    (hb : S_.BroadcastsInDim s dims) (hr : s.ReducesTo axes S_) (hu : 0 < S_.numel)
    (h : Host.reduce IntOp.andi (cmpf .olt (Host.absf x) (broadcastInDim s dims hb (constant (F := Ideal) S_ .f32 0x7F800000#32)))
      (constantI S_ 1 1#1) hr hu ix0 = 1#1) (i : s.Idx) : IsR (x i) :=
  isR_of_bit (x i) (Host.reduce_andi_all _ _ hr hu ix0 h i)

open Cert.Pre_finite_inputs in
/-- The precondition, read back argument by argument. -/
theorem finite_of_pre (x0 : FVec Ideal S100000x64 .f32) (x1 x2 : IVec S1600000 32) (x3 : FVec Ideal S64x64 .f32)
    (x4 : FVec Ideal S64 .f32) (x5 : FVec Ideal S64x64 .f32) (x6 x7 x8 : FVec Ideal S64 .f32)
    (h : Cert.Pre_finite_inputs.fn (F := Ideal) x0 x1 x2 x3 x4 x5 x6 x7 x8 = fun _ => 1#1) :
    (∀ i, IsR (x0 i)) ∧ (∀ i, IsR (x3 i)) ∧ (∀ i, IsR (x4 i)) ∧ (∀ i, IsR (x5 i)) ∧ (∀ i, IsR (x6 i))
      ∧ (∀ i, IsR (x7 i)) ∧ (∀ i, IsR (x8 i)) := by
  have h0 := congrFun h ix0
  dsimp only [Cert.Pre_finite_inputs.fn, Cert.Pre_finite_inputs.fn_part1, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨isR_of_all x0 _ _ _ _ h0, isR_of_all x3 _ _ _ _ h3, isR_of_all x4 _ _ _ _ h4, isR_of_all x5 _ _ _ _ h5,
    isR_of_all x6 _ _ _ _ h6, isR_of_all x7 _ _ _ _ h7, isR_of_all x8 _ _ _ _ h8⟩

end Cert.FinV

end
-- ==== Proof.KHost.lean ====
/- What the host operations around the two kernel regions compute, read buffer by buffer. -/
import proofs.«158067_j1219770712797_1_alg».proof.Proof.Gen.KernelIdeal.Frame
import proofs.«158067_j1219770712797_1_alg».proof.Proof.Spec
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.HostV

open Cert.KernelIdeal Cert.KernelIdeal.Gen

variable {F : FTy → Type} [FloatOps F]

/-- The neighbourhood sums as the host computes them before the first region: negative source indices wrapped, the source
    rows gathered, and scatter-added into a zero array at the destination indices. -/
def aggK (feats : FVec F S100000x64 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 feats
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

section Stretch0
variable (W : Valuation τ sig (Elt F))

theorem s0_v9 : StableHlo.after hostOps0 W (Proc.devRef .tc main_v9)
    = aggK (W (Proc.devRef .tc main_arg0)) (W (Proc.devRef .tc main_arg1)) (W (Proc.devRef .tc main_arg2)) := by
  after_results; rfl
theorem s0_v10 : StableHlo.after hostOps0 W (Proc.devRef .tc main_v10)
    = shapeCast S1x64 (W (Proc.devRef .tc main_arg4)) shapeCasts_S64_S1x64 := by
  after_results; rfl
theorem s0_v11 : StableHlo.after hostOps0 W (Proc.devRef .tc main_v11)
    = shapeCast S1x64 (W (Proc.devRef .tc main_arg6)) shapeCasts_S64_S1x64 := by
  after_results; rfl
theorem s0_arg0 : StableHlo.after hostOps0 W (Proc.devRef .tc main_arg0) = W (Proc.devRef .tc main_arg0) := by after_results
theorem s0_arg3 : StableHlo.after hostOps0 W (Proc.devRef .tc main_arg3) = W (Proc.devRef .tc main_arg3) := by after_results
theorem s0_arg5 : StableHlo.after hostOps0 W (Proc.devRef .tc main_arg5) = W (Proc.devRef .tc main_arg5) := by after_results
theorem s0_arg7 : StableHlo.after hostOps0 W (Proc.devRef .tc main_arg7) = W (Proc.devRef .tc main_arg7) := by after_results
theorem s0_arg8 : StableHlo.after hostOps0 W (Proc.devRef .tc main_arg8) = W (Proc.devRef .tc main_arg8) := by after_results
end Stretch0

/-- A bias row reshaped to one row of 64 reads back the bias entry. -/
theorem reshape_row (x : S64.Idx → EReal) (q : Fin 64) :
    (shapeCast S1x64 x shapeCasts_S64_S1x64 : S1x64.Idx → EReal) (ix2 0 q) = x (ix1 q) :=
  shapeCast_a_1a_apply x shapeCasts_S64_S1x64 0 q

/-- One row of 64 flattened to a vector of 64 reads back the row's entry. -/
theorem flatten_row (x : S1x64.Idx → EReal) (q : Fin 64) :
    (shapeCast S64 x shapeCasts_S1x64_S64 : S64.Idx → EReal) (ix1 q) = x (ix2 0 q) :=
  shapeCast_1a_a_apply x shapeCasts_S1x64_S64 q

section Stretch1
variable (W : Valuation τ sig (Elt Ideal))

/-- A row of column sums, flattened and divided entrywise by the node count. -/
def meanV (x : S1x64.Idx → EReal) : FVec Ideal S64 .f32 :=
  Host.divf (F := Ideal) (shapeCast S64 x shapeCasts_S1x64_S64)
    (broadcastInDim S64 ![] bcast_S_S64 (constant (F := Ideal) S_ .f32 0x47C35000#32))

/-- Entry q of that vector is the row's entry q divided by the node count. -/
theorem meanV_apply (x : S1x64.Idx → EReal) (q : Fin 64) :
    (meanV x : S64.Idx → EReal) (ix1 q) = Ideal.div (x (ix2 0 q)) GcnNorm.nLit := by
  unfold meanV
  simp only [Host.divf, Ideal.hostDivf_def, broadcastInDim, constant_apply]
  rw [flatten_row]

/-- The mean buffer as the composed term of the operations that wrote it. -/
theorem term_v24 : StableHlo.after hostOps1 W (Proc.devRef .tc main_v24)
    = shapeCast S1x64 (meanV (W (Proc.devRef .tc main_v12_1))) shapeCasts_S64_S1x64 := by
  after_results; rfl

/-- The mean row: the first region's column sums divided by the node count. -/
theorem s1_v24 (q : Fin 64) : (StableHlo.after hostOps1 W (Proc.devRef .tc main_v24) : S1x64.Idx → EReal) (ix2 0 q)
    = Ideal.div ((W (Proc.devRef .tc main_v12_1) : S1x64.Idx → EReal) (ix2 0 q)) GcnNorm.nLit := by
  rw [term_v24]
  exact (reshape_row _ q).trans (meanV_apply _ q)

/-- The inverse-deviation buffer as the composed term of the operations that wrote it. -/
theorem term_v25 : StableHlo.after hostOps1 W (Proc.devRef .tc main_v25)
    = shapeCast S1x64 (Host.rsqrt (F := Ideal) (addf (subf (meanV (W (Proc.devRef .tc main_v12_2)))
          (mulf (meanV (W (Proc.devRef .tc main_v12_1))) (meanV (W (Proc.devRef .tc main_v12_1)))))
        (broadcastInDim S64 ![] bcast_S_S64 (constant (F := Ideal) S_ .f32 0x3727C5AC#32)))) shapeCasts_S64_S1x64 := by
  after_results; rfl

/-- The inverse-deviation row: rsqrt of (sum of squares / N − mean² + ε). -/
theorem s1_v25 (q : Fin 64) : (StableHlo.after hostOps1 W (Proc.devRef .tc main_v25) : S1x64.Idx → EReal) (ix2 0 q)
    = Ideal.rsqrt (Ideal.div ((W (Proc.devRef .tc main_v12_2) : S1x64.Idx → EReal) (ix2 0 q)) GcnNorm.nLit
        - Ideal.div ((W (Proc.devRef .tc main_v12_1) : S1x64.Idx → EReal) (ix2 0 q)) GcnNorm.nLit
          * Ideal.div ((W (Proc.devRef .tc main_v12_1) : S1x64.Idx → EReal) (ix2 0 q)) GcnNorm.nLit
        + GcnNorm.epsLit) := by
  rw [term_v25]
  refine (reshape_row _ q).trans ?_
  simp only [Host.rsqrt, Ideal.hostUnary_rsqrt_def, addf_apply, subf_apply, mulf_apply, broadcastInDim, constant_apply,
    meanV_apply]
theorem s1_v26 (q : Fin 64) : (StableHlo.after hostOps1 W (Proc.devRef .tc main_v26) : S1x64.Idx → EReal) (ix2 0 q)
    = (W (Proc.devRef .tc main_arg7) : S64.Idx → EReal) (ix1 q) := by
  have h : StableHlo.after hostOps1 W (Proc.devRef .tc main_v26)
      = shapeCast S1x64 (W (Proc.devRef .tc main_arg7)) shapeCasts_S64_S1x64 := by after_results; rfl
  rw [h]; exact reshape_row _ q
theorem s1_v27 (q : Fin 64) : (StableHlo.after hostOps1 W (Proc.devRef .tc main_v27) : S1x64.Idx → EReal) (ix2 0 q)
    = (W (Proc.devRef .tc main_arg8) : S64.Idx → EReal) (ix1 q) := by
  have h : StableHlo.after hostOps1 W (Proc.devRef .tc main_v27)
      = shapeCast S1x64 (W (Proc.devRef .tc main_arg8)) shapeCasts_S64_S1x64 := by after_results; rfl
  rw [h]; exact reshape_row _ q
theorem s1_v12_0 : StableHlo.after hostOps1 W (Proc.devRef .tc main_v12_0) = W (Proc.devRef .tc main_v12_0) := by after_results
end Stretch1

end Cert.KernelIdeal.HostV

end
-- ==== Proof.KRegion0.lean ====
/- The first kernel region's three result arrays, read at an index: the activation array entry by entry, and the two
   accumulator rows as sums over all 100000 rows.  Road: what each control case leaves in the three output blocks, as the
   body's pure payloads of the loaded blocks; the payloads at an index over the extended reals; by induction on the grid
   point, the accumulator rows after point n as sums over the rows of blocks 0 … n; the arrays after the write-backs. -/
import proofs.«158067_j1219770712797_1_alg».proof.Proof.Gen.KernelIdeal.Frame
import proofs.«158067_j1219770712797_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Reg0

open Cert.KernelIdeal Cert.KernelIdeal.Gen

section Pieces
variable {F : FTy → Type} [FloatOps F]

/-- The zero offset of every whole-block load and store of the body. -/
theorem hz : (![0, 0] : Fin 2 → Nat) = fun _ => 0 := funext fun a => by fin_cases a <;> rfl

/-- First point: the one store into the activation block is the activation payload of the six loaded blocks. -/
theorem out_A_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond0_0 i) (x0 : Vec F S5000x64 .f32) (x1 : Vec F S5000x64 .f32) (x2 : Vec F S64x64 .f32) (x3 : Vec F S1x64 .f32) (x4 : Vec F S64x64 .f32) (x5 : Vec F S1x64 .f32) :
    out0_A_6 c i a1 h1 a2 h2 a3 h3 a4 h4 a5 h5 a6 h6 a7 h7 a8 h8 a9 h9 hc x0 x1 x2 x3 x4 x5 = k0_pay4 x0 x1 x2 x4 x3 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x64) hz, View.ld_unit_zero (S := S1x64) hz]

/-- Later points: the same store. -/
theorem out_B_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond0_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out0_B_6 c i a1 h1 a2 h2 a3 h3 a4 h4 a5 h5 a6 h6 a7 h7 a8 h8 a9 h9 hc x0 x1 x2 x3 x4 x5 xo7 xo8 = k0_pay4 x0 x1 x2 x4 x3 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x64) hz, View.ld_unit_zero (S := S1x64) hz]

/-- First point: the sums row is reset to the zero row, read back, and the block's column sums are added to it. -/
theorem out_A_7 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond0_0 i) (x0 : Vec F S5000x64 .f32) (x1 : Vec F S5000x64 .f32) (x2 : Vec F S64x64 .f32) (x3 : Vec F S1x64 .f32) (x4 : Vec F S64x64 .f32) (x5 : Vec F S1x64 .f32) :
    out0_A_7 c i a1 h1 a2 h2 a3 h3 a4 h4 a5 h5 a6 h6 a7 h7 a8 h8 a9 h9 hc x0 x1 x2 x3 x4 x5 = k0_pay5 x0 x1 x2 x4 x3 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x64) hz, View.ld_unit_zero (S := S1x64) hz, View.readCov_unit_zero (S := S1x64) _ hz]

/-- Later points: the block's column sums are added to the row the point before left. -/
theorem out_B_7 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond0_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out0_B_7 c i a1 h1 a2 h2 a3 h3 a4 h4 a5 h5 a6 h6 a7 h7 a8 h8 a9 h9 hc x0 x1 x2 x3 x4 x5 xo7 xo8 = k0_pay5 x0 x1 x2 x4 x3 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x64) hz, View.ld_unit_zero (S := S1x64) hz]

/-- First point: the squares row likewise, over the zero row. -/
theorem out_A_8 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond0_0 i) (x0 : Vec F S5000x64 .f32) (x1 : Vec F S5000x64 .f32) (x2 : Vec F S64x64 .f32) (x3 : Vec F S1x64 .f32) (x4 : Vec F S64x64 .f32) (x5 : Vec F S1x64 .f32) :
    out0_A_8 c i a1 h1 a2 h2 a3 h3 a4 h4 a5 h5 a6 h6 a7 h7 a8 h8 a9 h9 hc x0 x1 x2 x3 x4 x5 = k0_pay1 (k0_pay4 x0 x1 x2 x4 x3 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x64) hz, View.ld_unit_zero (S := S1x64) hz, View.readCov_unit_zero (S := S1x64) _ hz]

/-- Later points: the block's column sums of squares are added to the row the point before left. -/
theorem out_B_8 (c : Dev nD) (i : grid0.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond0_0 i) (x0 : Vec F S5000x64 .f32) (x1 : Vec F S5000x64 .f32) (x2 : Vec F S64x64 .f32) (x3 : Vec F S1x64 .f32) (x4 : Vec F S64x64 .f32) (x5 : Vec F S1x64 .f32) (xo7 xo8 : Vec F S1x64 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x4 x3 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S5000x64) hz, View.ld_unit_zero (S := S64x64) hz, View.ld_unit_zero (S := S1x64) hz]

end Pieces

section Payload

/-! ### The matrix product's operand indices, axis by axis -/

theorem lhsD_0 (j : S5000x64.Idx) (k : dot_S5000x64_S64x64_S5000x64_1_0_0_1_n_n.contr.Idx) : (dot_S5000x64_S64x64_S5000x64_1_0_0_1_n_n.lhsIdx j k 0 : ℕ) = j 0 := by
  simp [DotDims.lhsIdx, dot_S5000x64_S64x64_S5000x64_1_0_0_1_n_n]; rfl
theorem lhsD_1 (j : S5000x64.Idx) (k : dot_S5000x64_S64x64_S5000x64_1_0_0_1_n_n.contr.Idx) : (dot_S5000x64_S64x64_S5000x64_1_0_0_1_n_n.lhsIdx j k 1 : ℕ) = k ⟨0, by decide⟩ := by
  simp [DotDims.lhsIdx, dot_S5000x64_S64x64_S5000x64_1_0_0_1_n_n]; rfl
theorem rhsD_0 (j : S5000x64.Idx) (k : dot_S5000x64_S64x64_S5000x64_1_0_0_1_n_n.contr.Idx) : (dot_S5000x64_S64x64_S5000x64_1_0_0_1_n_n.rhsIdx j k 0 : ℕ) = k ⟨0, by decide⟩ := by
  simp [DotDims.rhsIdx, dot_S5000x64_S64x64_S5000x64_1_0_0_1_n_n]; rfl
theorem rhsD_1 (j : S5000x64.Idx) (k : dot_S5000x64_S64x64_S5000x64_1_0_0_1_n_n.contr.Idx) : (dot_S5000x64_S64x64_S5000x64_1_0_0_1_n_n.rhsIdx j k 1 : ℕ) = j 1 := by
  simp [DotDims.rhsIdx, dot_S5000x64_S64x64_S5000x64_1_0_0_1_n_n]; rfl

/-- A [5000,64] by [64,64] product into the zero block, read at (p, q): the sum over the 64 inner positions. -/
theorem mm_apply (lhs : FVec Ideal S5000x64 .bf16) (rhs : FVec Ideal S64x64 .bf16) (p : Fin 5000) (q : Fin 64) :
    matmul dot_S5000x64_S64x64_S5000x64_1_0_0_1_n_n none lhs rhs (constant (F := Ideal) S5000x64 .f32 0x00000000#32) (ix2 p q)
      = ∑ k : Fin 64, lhs (ix2 p k) * rhs (ix2 k q) := by
  refine (Ideal.matmul_constant_zero_apply dot_S5000x64_S64x64_S5000x64_1_0_0_1_n_n none lhs rhs (ix2 p q)).trans ?_
  rw [← Equiv.sum_comp (contrEquiv1 dot_S5000x64_S64x64_S5000x64_1_0_0_1_n_n 64 rfl rfl).symm]
  refine Finset.sum_congr rfl fun k _ => ?_
  have e1 : dot_S5000x64_S64x64_S5000x64_1_0_0_1_n_n.lhsIdx (ix2 p q) ((contrEquiv1 dot_S5000x64_S64x64_S5000x64_1_0_0_1_n_n 64 rfl rfl).symm k) = ix2 p k := by
    funext a
    apply Fin.ext
    match a with
    | ⟨0, _⟩ => exact lhsD_0 _ _
    | ⟨1, _⟩ => exact (lhsD_1 _ _).trans (contrEquiv1_symm_val dot_S5000x64_S64x64_S5000x64_1_0_0_1_n_n 64 rfl rfl k)
  have e2 : dot_S5000x64_S64x64_S5000x64_1_0_0_1_n_n.rhsIdx (ix2 p q) ((contrEquiv1 dot_S5000x64_S64x64_S5000x64_1_0_0_1_n_n 64 rfl rfl).symm k) = ix2 k q := by
    funext a
    apply Fin.ext
    match a with
    | ⟨0, _⟩ => exact (rhsD_0 _ _).trans (contrEquiv1_symm_val dot_S5000x64_S64x64_S5000x64_1_0_0_1_n_n 64 rfl rfl k)
    | ⟨1, _⟩ => exact rhsD_1 _ _
  rw [e1, e2]

/-- The activation payload at (p, q): two linear maps with bias, each cut at zero, added. -/
theorem pay4_apply (x0 x1 : Vec Ideal S5000x64 .f32) (x2 x4 : Vec Ideal S64x64 .f32) (x3 x5 : Vec Ideal S1x64 .f32)
    (p : Fin 5000) (q : Fin 64) :
    (k0_pay4 (F := Ideal) x0 x1 x2 x4 x3 x5 : S5000x64.Idx → EReal) (ix2 p q)
      = max ((∑ k : Fin 64, (x0 (ix2 p k) : EReal) * (x2 (ix2 k q) : EReal)) + (x3 (ix2 0 q) : EReal)) 0
        + max ((∑ k : Fin 64, (x1 (ix2 p k) : EReal) * (x4 (ix2 k q) : EReal)) + (x5 (ix2 0 q) : EReal)) 0 := by
  unfold k0_pay4
  simp only [shapeCast_self, addf_apply, maximumf_apply, broadcast_apply, mm_apply, broadcastTo_1b_ab_apply, truncf_apply]
  rw [show (FloatOps.ofBits (F := Ideal) .f32 0x00000000#32 : EReal) = 0 from Ideal.ofBits_zero_f32]

/-- The zero row of the reset, read at an index. -/
theorem pay2_apply (u : Fin 1) (q : Fin 64) : ((k0_pay2 (F := Ideal)) : S1x64.Idx → EReal) (ix2 u q) = 0 := by
  unfold k0_pay2
  simp only [broadcast_apply]
  exact Ideal.ofBits_zero_f32
theorem pay3_apply (u : Fin 1) (q : Fin 64) : ((k0_pay3 (F := Ideal)) : S1x64.Idx → EReal) (ix2 u q) = 0 := by
  unfold k0_pay3
  simp only [broadcast_apply]
  exact Ideal.ofBits_zero_f32

/-- The sum over the rows of a [5000,64] block, kept as a [1,64] row, read at column q. -/
theorem colred_apply (v : FVec Ideal S5000x64 .f32) (q : Fin 64) :
    shapeCast S1x64 (multiReduction (F := Ideal) .add [0] S64 v 0x00000000#32 reduces_S5000x64_S64 (.inl rfl) rfl) shapeCasts_S64_S1x64 (ix2 (0 : Fin 1) q)
      = ∑ p : Fin 5000, v (ix2 p q) := by
  refine (shapeCast_a_1a_apply _ shapeCasts_S64_S1x64 (0 : Fin 1) q).trans ?_
  refine (Ideal.multiReduction_add_single v 0x00000000#32 reduces_S5000x64_S64 (.inl rfl) rfl (ix1 q)).trans ?_
  refine Finset.sum_congr rfl fun p _ => congrArg v ?_
  funext a
  match a with
  | ⟨0, _⟩ => rfl
  | ⟨1, _⟩ => rfl

/-- The sums accumulator's update at column q: the row held plus the block's column sum. -/
theorem pay5_apply (x0 x1 : Vec Ideal S5000x64 .f32) (x2 x4 : Vec Ideal S64x64 .f32) (x3 x5 : Vec Ideal S1x64 .f32)
    (acc : Vec Ideal S1x64 .f32) (q : Fin 64) :
    (k0_pay5 (F := Ideal) x0 x1 x2 x4 x3 x5 acc : S1x64.Idx → EReal) (ix2 (0 : Fin 1) q)
      = (acc (ix2 (0 : Fin 1) q) : EReal) + ∑ p : Fin 5000, (k0_pay4 (F := Ideal) x0 x1 x2 x4 x3 x5 : S5000x64.Idx → EReal) (ix2 p q) := by
  unfold k0_pay5
  simp only [shapeCast_self, addf_apply]
  exact congrArg (fun z : EReal => (acc (ix2 (0 : Fin 1) q) : EReal) + z) (colred_apply (k0_pay4 (F := Ideal) x0 x1 x2 x4 x3 x5) q)

/-- The squares accumulator's update at column q: the row held plus the block's column sum of squares. -/
theorem pay1_apply (v : FVec Ideal S5000x64 .f32) (acc : Vec Ideal S1x64 .f32) (q : Fin 64) :
    (k0_pay1 (F := Ideal) v acc : S1x64.Idx → EReal) (ix2 (0 : Fin 1) q)
      = (acc (ix2 (0 : Fin 1) q) : EReal) + ∑ p : Fin 5000, (v (ix2 p q) : EReal) * (v (ix2 p q) : EReal) := by
  unfold k0_pay1
  simp only [shapeCast_self, addf_apply]
  exact congrArg (fun z : EReal => (acc (ix2 (0 : Fin 1) q) : EReal) + z) (colred_apply (mulf v v) q)

end Payload

variable (V : (c : Dev nD) → (b : Ref sig .tc) → Buf (Elt Ideal) ((c : Thread nD τ).loc b))

/-- The activation computed from the arrays the first region finds at its entry. -/
def hact (c : Dev nD) : Fin 100000 → Fin 64 → EReal :=
  GcnNorm.act (fun r k => (V c main_v9 : S100000x64.Idx → EReal) (ix2 r k)) (fun r k => (V c main_arg0 : S100000x64.Idx → EReal) (ix2 r k))
    (fun k q => (V c main_arg3 : S64x64.Idx → EReal) (ix2 k q)) (fun k q => (V c main_arg5 : S64x64.Idx → EReal) (ix2 k q))
    (fun q => (V c main_v10 : S1x64.Idx → EReal) (ix2 0 q)) (fun q => (V c main_v11 : S1x64.Idx → EReal) (ix2 0 q))

section Blocks

/-- The grid has twenty points. -/
theorem tlt (t : Fin cfg0.N) : t.val < 20 := lt_of_lt_of_eq t.isLt (show cfg0.N = 20 from N_0)

/-- Row p of block t is row 5000 t + p of the array. -/
def row (t : Fin cfg0.N) (p : Fin 5000) : Fin 100000 :=
  ⟨5000 * t.val + p.val, by have := tlt t; have := p.isLt; omega⟩

/-! ### The windows' block indices, decided over the grid -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = 0 ∧ win0_2.index t 1 = 0 :=
  (by decide +kernel : ∀ t : Fin grid0.N, win0_2.index t 0 = 0 ∧ win0_2.index t 1 = 0)
theorem idx0_3 : ∀ t : Fin cfg0.N, win0_3.index t 0 = 0 ∧ win0_3.index t 1 = 0 :=
  (by decide +kernel : ∀ t : Fin grid0.N, win0_3.index t 0 = 0 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = 0 ∧ win0_5.index t 1 = 0 :=
  (by decide +kernel : ∀ t : Fin grid0.N, win0_5.index t 0 = 0 ∧ win0_5.index t 1 = 0)
theorem idx0_6 : ∀ t : Fin cfg0.N, win0_6.index t 0 = t.val ∧ win0_6.index t 1 = 0 :=
  (by decide +kernel : ∀ t : Fin grid0.N, win0_6.index t 0 = t.val ∧ win0_6.index t 1 = 0)
theorem idx0_7 : ∀ t : Fin cfg0.N, win0_7.index t 0 = 0 ∧ win0_7.index t 1 = 0 :=
  (by decide +kernel : ∀ t : Fin grid0.N, win0_7.index t 0 = 0 ∧ win0_7.index t 1 = 0)
theorem idx0_8 : ∀ t : Fin cfg0.N, win0_8.index t 0 = 0 ∧ win0_8.index t 1 = 0 :=
  (by decide +kernel : ∀ t : Fin grid0.N, win0_8.index t 0 = 0 ∧ win0_8.index t 1 = 0)

/-! ### A block's entry is the array's -/

theorem blk0_apply (c : Dev nD) (t : Fin cfg0.N) (p : Fin 5000) (k : Fin 64) :
    (iblk0 V c 0 t : S5000x64.Idx → EReal) (ix2 p k) = (V c main_v9 : S100000x64.Idx → EReal) (ix2 (row t p) k) := by
  unfold iblk0
  rw [View.read_apply]
  show (V c main_v9 : S100000x64.Idx → EReal) _ = (V c main_v9 : S100000x64.Idx → EReal) _
  congr 1
  funext a
  apply Fin.ext
  match a with
  | ⟨0, _⟩ => show win0_0.index t 0 * 5000 + 1 * p.val = 5000 * t.val + p.val; rw [(idx0_0 t).1]; omega
  | ⟨1, _⟩ => show win0_0.index t 1 * 64 + 1 * k.val = k.val; rw [(idx0_0 t).2]; omega

theorem blk1_apply (c : Dev nD) (t : Fin cfg0.N) (p : Fin 5000) (k : Fin 64) :
    (iblk0 V c 1 t : S5000x64.Idx → EReal) (ix2 p k) = (V c main_arg0 : S100000x64.Idx → EReal) (ix2 (row t p) k) := by
  unfold iblk0
  rw [View.read_apply]
  show (V c main_arg0 : S100000x64.Idx → EReal) _ = (V c main_arg0 : S100000x64.Idx → EReal) _
  congr 1
  funext a
  apply Fin.ext
  match a with
  | ⟨0, _⟩ => show win0_1.index t 0 * 5000 + 1 * p.val = 5000 * t.val + p.val; rw [(idx0_1 t).1]; omega
  | ⟨1, _⟩ => show win0_1.index t 1 * 64 + 1 * k.val = k.val; rw [(idx0_1 t).2]; omega

theorem blk2_apply (c : Dev nD) (t : Fin cfg0.N) (k : Fin 64) (q : Fin 64) :
    (iblk0 V c 2 t : S64x64.Idx → EReal) (ix2 k q) = (V c main_arg3 : S64x64.Idx → EReal) (ix2 k q) := by
  unfold iblk0
  rw [View.read_apply]
  show (V c main_arg3 : S64x64.Idx → EReal) _ = (V c main_arg3 : S64x64.Idx → EReal) _
  congr 1
  funext a
  apply Fin.ext
  match a with
  | ⟨0, _⟩ => show win0_2.index t 0 * 64 + 1 * k.val = k.val; rw [(idx0_2 t).1]; omega
  | ⟨1, _⟩ => show win0_2.index t 1 * 64 + 1 * q.val = q.val; rw [(idx0_2 t).2]; omega

theorem blk3_apply (c : Dev nD) (t : Fin cfg0.N) (u : Fin 1) (q : Fin 64) :
    (iblk0 V c 3 t : S1x64.Idx → EReal) (ix2 u q) = (V c main_v10 : S1x64.Idx → EReal) (ix2 u q) := by
  unfold iblk0
  rw [View.read_apply]
  show (V c main_v10 : S1x64.Idx → EReal) _ = (V c main_v10 : S1x64.Idx → EReal) _
  congr 1
  funext a
  apply Fin.ext
  match a with
  | ⟨0, _⟩ => show win0_3.index t 0 * 1 + 1 * u.val = u.val; rw [(idx0_3 t).1]; omega
  | ⟨1, _⟩ => show win0_3.index t 1 * 64 + 1 * q.val = q.val; rw [(idx0_3 t).2]; omega

theorem blk4_apply (c : Dev nD) (t : Fin cfg0.N) (k : Fin 64) (q : Fin 64) :
    (iblk0 V c 4 t : S64x64.Idx → EReal) (ix2 k q) = (V c main_arg5 : S64x64.Idx → EReal) (ix2 k q) := by
  unfold iblk0
  rw [View.read_apply]
  show (V c main_arg5 : S64x64.Idx → EReal) _ = (V c main_arg5 : S64x64.Idx → EReal) _
  congr 1
  funext a
  apply Fin.ext
  match a with
  | ⟨0, _⟩ => show win0_4.index t 0 * 64 + 1 * k.val = k.val; rw [(idx0_4 t).1]; omega
  | ⟨1, _⟩ => show win0_4.index t 1 * 64 + 1 * q.val = q.val; rw [(idx0_4 t).2]; omega

theorem blk5_apply (c : Dev nD) (t : Fin cfg0.N) (u : Fin 1) (q : Fin 64) :
    (iblk0 V c 5 t : S1x64.Idx → EReal) (ix2 u q) = (V c main_v11 : S1x64.Idx → EReal) (ix2 u q) := by
  unfold iblk0
  rw [View.read_apply]
  show (V c main_v11 : S1x64.Idx → EReal) _ = (V c main_v11 : S1x64.Idx → EReal) _
  congr 1
  funext a
  apply Fin.ext
  match a with
  | ⟨0, _⟩ => show win0_5.index t 0 * 1 + 1 * u.val = u.val; rw [(idx0_5 t).1]; omega
  | ⟨1, _⟩ => show win0_5.index t 1 * 64 + 1 * q.val = q.val; rw [(idx0_5 t).2]; omega

/-- The activation block of point t: the activation payload of the point's six input blocks. -/
def hblk (c : Dev nD) (t : Fin cfg0.N) : Vec Ideal S5000x64 .f32 :=
  k0_pay4 (F := Ideal) (iblk0 V c 0 t) (iblk0 V c 1 t) (iblk0 V c 2 t) (iblk0 V c 4 t) (iblk0 V c 3 t) (iblk0 V c 5 t)

end Blocks

section Invariant

/-- The activation block at (p, q) is the activation of row 5000 t + p. -/
theorem hblk_apply (c : Dev nD) (t : Fin cfg0.N) (p : Fin 5000) (q : Fin 64) :
    (hblk V c t : S5000x64.Idx → EReal) (ix2 p q) = hact V c (row t p) q := by
  unfold hblk
  refine (pay4_apply (iblk0 V c 0 t) (iblk0 V c 1 t) (iblk0 V c 2 t) (iblk0 V c 4 t) (iblk0 V c 3 t) (iblk0 V c 5 t) p q).trans ?_
  unfold hact GcnNorm.act
  simp only [blk0_apply, blk1_apply, blk2_apply, blk3_apply, blk4_apply, blk5_apply]

/-- Every point leaves its activation block in the first output's buffer. -/
theorem outs6 (c : Dev nD) (t : Fin cfg0.N) : (outsAt0 V c t.val t.isLt).1 = hblk V c t := by
  by_cases h0 : t.val % 20 = 0
  · rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2

/-- The activation of a row and channel, on natural-number rows (zero past the array). -/
def hrow (c : Dev nD) (q : Fin 64) (r : ℕ) : EReal := if h : r < 100000 then hact V c ⟨r, h⟩ q else 0

theorem hrow_row (c : Dev nD) (q : Fin 64) (t : Fin cfg0.N) (p : Fin 5000) :
    hrow V c q (5000 * t.val + p.val) = hact V c (row t p) q :=
  dif_pos (row t p).isLt

/-- First point: the row is the block's column sum over the zero row. -/
theorem outs7_A (c : Dev nD) (t : Fin cfg0.N) (h0 : t.val % 20 = 0) (q : Fin 64) :
    ((outsAt0 V c t.val t.isLt).2.1 : S1x64.Idx → EReal) (ix2 (0 : Fin 1) q)
      = 0 + ∑ p : Fin 5000, hrow V c q (5000 * t.val + p.val) := by
  rw [outsAt0_A V c t h0]
  dsimp only
  refine (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 (0 : Fin 1) q)).trans ?_
  refine (pay5_apply (iblk0 V c 0 t) (iblk0 V c 1 t) (iblk0 V c 2 t) (iblk0 V c 4 t) (iblk0 V c 3 t) (iblk0 V c 5 t) (k0_pay2 (F := Ideal)) q).trans ?_
  rw [pay2_apply]
  exact congrArg (fun z : EReal => 0 + z) (Finset.sum_congr rfl fun p _ => (hblk_apply V c t p q).trans (hrow_row V c q t p).symm)

/-- Later points: the row the point before left, plus the block's column sum. -/
theorem outs7_B (c : Dev nD) (t : Fin cfg0.N) (h0 : ¬t.val % 20 = 0) (q : Fin 64) :
    ((outsAt0 V c t.val t.isLt).2.1 : S1x64.Idx → EReal) (ix2 (0 : Fin 1) q)
      = ((outsAt0 V c (t.val - 1) (Nat.lt_of_le_of_lt (Nat.sub_le _ _) t.isLt)).2.1 : S1x64.Idx → EReal) (ix2 (0 : Fin 1) q)
        + ∑ p : Fin 5000, hrow V c q (5000 * t.val + p.val) := by
  rw [outsAt0_B V c t h0]
  dsimp only
  refine (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (pay5_apply (iblk0 V c 0 t) (iblk0 V c 1 t) (iblk0 V c 2 t) (iblk0 V c 4 t) (iblk0 V c 3 t) (iblk0 V c 5 t) (outsAt0 V c (t.val - 1) (Nat.lt_of_le_of_lt (Nat.sub_le _ _) t.isLt)).2.1 q).trans ?_
  exact congrArg (fun z : EReal => ((outsAt0 V c (t.val - 1) (Nat.lt_of_le_of_lt (Nat.sub_le _ _) t.isLt)).2.1 : S1x64.Idx → EReal) (ix2 (0 : Fin 1) q) + z) (Finset.sum_congr rfl fun p _ => (hblk_apply V c t p q).trans (hrow_row V c q t p).symm)

/-- After point n the row holds the sum over the rows of blocks 0 … n: by induction on the point. -/
theorem outs7 (c : Dev nD) (q : Fin 64) : ∀ (n : ℕ) (h : n < cfg0.N),
    ((outsAt0 V c n h).2.1 : S1x64.Idx → EReal) (ix2 (0 : Fin 1) q)
      = ∑ s ∈ Finset.range (n + 1), ∑ p : Fin 5000, hrow V c q (5000 * s + p.val)
  | 0, h => by
    refine (outs7_A V c ⟨0, h⟩ rfl q).trans ?_
    rw [zero_add, Finset.sum_range_one]
  | n + 1, h => by
    have hB : ¬(⟨n + 1, h⟩ : Fin cfg0.N).val % 20 = 0 := by
      have := tlt ⟨n + 1, h⟩
      dsimp only at this ⊢
      omega
    refine (outs7_B V c ⟨n + 1, h⟩ hB q).trans ?_
    rw [Finset.sum_range_succ _ (n + 1)]
    exact congrArg (· + ∑ p : Fin 5000, hrow V c q (5000 * (n + 1) + p.val)) (outs7 c q n (Nat.lt_of_succ_lt h))

/-- The squared activation of a row and channel, on natural-number rows (zero past the array). -/
def h2row (c : Dev nD) (q : Fin 64) (r : ℕ) : EReal := if h : r < 100000 then hact V c ⟨r, h⟩ q * hact V c ⟨r, h⟩ q else 0

theorem h2row_row (c : Dev nD) (q : Fin 64) (t : Fin cfg0.N) (p : Fin 5000) :
    h2row V c q (5000 * t.val + p.val) = hact V c (row t p) q * hact V c (row t p) q :=
  dif_pos (row t p).isLt

/-- First point: the row is the block's column sum over the zero row. -/
theorem outs8_A (c : Dev nD) (t : Fin cfg0.N) (h0 : t.val % 20 = 0) (q : Fin 64) :
    ((outsAt0 V c t.val t.isLt).2.2 : S1x64.Idx → EReal) (ix2 (0 : Fin 1) q)
      = 0 + ∑ p : Fin 5000, h2row V c q (5000 * t.val + p.val) := by
  rw [outsAt0_A V c t h0]
  dsimp only
  refine (congrFun (out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)) (ix2 (0 : Fin 1) q)).trans ?_
  refine (pay1_apply (k0_pay4 (F := Ideal) (iblk0 V c 0 t) (iblk0 V c 1 t) (iblk0 V c 2 t) (iblk0 V c 4 t) (iblk0 V c 3 t) (iblk0 V c 5 t)) (k0_pay3 (F := Ideal)) q).trans ?_
  rw [pay3_apply]
  exact congrArg (fun z : EReal => 0 + z) (Finset.sum_congr rfl fun p _ => (congrArg (fun z : EReal => z * z) (hblk_apply V c t p q)).trans (h2row_row V c q t p).symm)

/-- Later points: the row the point before left, plus the block's column sum. -/
theorem outs8_B (c : Dev nD) (t : Fin cfg0.N) (h0 : ¬t.val % 20 = 0) (q : Fin 64) :
    ((outsAt0 V c t.val t.isLt).2.2 : S1x64.Idx → EReal) (ix2 (0 : Fin 1) q)
      = ((outsAt0 V c (t.val - 1) (Nat.lt_of_le_of_lt (Nat.sub_le _ _) t.isLt)).2.2 : S1x64.Idx → EReal) (ix2 (0 : Fin 1) q)
        + ∑ p : Fin 5000, h2row V c q (5000 * t.val + p.val) := by
  rw [outsAt0_B V c t h0]
  dsimp only
  refine (congrFun (out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2) (ix2 (0 : Fin 1) q)).trans ?_
  refine (pay1_apply (k0_pay4 (F := Ideal) (iblk0 V c 0 t) (iblk0 V c 1 t) (iblk0 V c 2 t) (iblk0 V c 4 t) (iblk0 V c 3 t) (iblk0 V c 5 t)) (outsAt0 V c (t.val - 1) (Nat.lt_of_le_of_lt (Nat.sub_le _ _) t.isLt)).2.2 q).trans ?_
  exact congrArg (fun z : EReal => ((outsAt0 V c (t.val - 1) (Nat.lt_of_le_of_lt (Nat.sub_le _ _) t.isLt)).2.2 : S1x64.Idx → EReal) (ix2 (0 : Fin 1) q) + z) (Finset.sum_congr rfl fun p _ => (congrArg (fun z : EReal => z * z) (hblk_apply V c t p q)).trans (h2row_row V c q t p).symm)

/-- After point n the row holds the sum over the rows of blocks 0 … n: by induction on the point. -/
theorem outs8 (c : Dev nD) (q : Fin 64) : ∀ (n : ℕ) (h : n < cfg0.N),
    ((outsAt0 V c n h).2.2 : S1x64.Idx → EReal) (ix2 (0 : Fin 1) q)
      = ∑ s ∈ Finset.range (n + 1), ∑ p : Fin 5000, h2row V c q (5000 * s + p.val)
  | 0, h => by
    refine (outs8_A V c ⟨0, h⟩ rfl q).trans ?_
    rw [zero_add, Finset.sum_range_one]
  | n + 1, h => by
    have hB : ¬(⟨n + 1, h⟩ : Fin cfg0.N).val % 20 = 0 := by
      have := tlt ⟨n + 1, h⟩
      dsimp only at this ⊢
      omega
    refine (outs8_B V c ⟨n + 1, h⟩ hB q).trans ?_
    rw [Finset.sum_range_succ _ (n + 1)]
    exact congrArg (· + ∑ p : Fin 5000, h2row V c q (5000 * (n + 1) + p.val)) (outs8 c q n (Nat.lt_of_succ_lt h))

end Invariant

section Final

/-- A sum over `a` blocks of `b` consecutive naturals is the sum over the first `b * a` naturals. -/
theorem sum_blocks {M : Type*} [AddCommMonoid M] (g : ℕ → M) (b : ℕ) : ∀ a : ℕ,
    ∑ s ∈ Finset.range a, ∑ p : Fin b, g (b * s + p.val) = ∑ r ∈ Finset.range (b * a), g r
  | 0 => by rw [Finset.sum_range_zero, Nat.mul_zero, Finset.sum_range_zero]
  | a + 1 => by
    rw [Finset.sum_range_succ, sum_blocks g b a, Nat.mul_succ, Finset.sum_range_add,
      Fin.sum_univ_eq_sum_range (fun x => g (b * a + x)) b]

/-- Twenty blocks of 5000 rows are the 100000 rows. -/
theorem sum_rows (g : ℕ → EReal) :
    ∑ s ∈ Finset.range 20, ∑ p : Fin 5000, g (5000 * s + p.val) = ∑ r : Fin 100000, g r.val := by
  rw [sum_blocks g 5000 20, show (5000 * 20 : ℕ) = 100000 from rfl, Fin.sum_univ_eq_sum_range g 100000]

/-- The last point of the grid. -/
def tlast : Fin cfg0.N := ⟨19, by rw [show cfg0.N = 20 from N_0]; omega⟩

/-! ### The activation array: every point writes its block back -/

/-- The activation as contents of the [100000,64] array. -/
def G6 (c : Dev nD) : Buf (Elt Ideal) ((c : Thread nD τ).loc main_v12_0) :=
  fun i : S100000x64.Idx => hact V c (i 0) (i 1)

/-- What point t writes back is block t of the activation. -/
theorem flushed6_eq (c : Dev nD) (t : Fin cfg0.N) :
    (dat0 V c).flushed 6 t = ((cfg0.win 6).blk t).view.read (Elt Ideal) (G6 V c) := by
  funext y
  rw [View.read_apply]
  obtain ⟨p, q, rfl⟩ : ∃ (p : Fin 5000) (q : Fin 64), y = (ix2 p q : S5000x64.Idx) := ⟨y 0, y 1, eq_ix2 y⟩
  show ((dat0 V c).after 6 t : S5000x64.Idx → EReal) (ix2 p q) = (G6 V c : S100000x64.Idx → EReal) _
  rw [after0_6, outs6]
  refine (hblk_apply V c t p q).trans ?_
  have e0 : (((cfg0.win 6).blk t).view.emb (ix2 p q) 0 : Fin 100000) = row t p :=
    Fin.ext (by show win0_6.index t 0 * 5000 + 1 * p.val = 5000 * t.val + p.val; rw [(idx0_6 t).1]; omega)
  have e1 : (((cfg0.win 6).blk t).view.emb (ix2 p q) 1 : Fin 64) = q :=
    Fin.ext (by show win0_6.index t 1 * 64 + 1 * q.val = q.val; rw [(idx0_6 t).2]; omega)
  exact (congrArg₂ (fun r q' => hact V c r q') e0 e1).symm

/-- So the activation array ends holding the activation: row r lies in the block of point r / 5000. -/
theorem final6 (c : Dev nD) : (dat0 V c).arrAt 6 cfg0.N = G6 V c :=
  (dat0 V c).arrAt_eq_of_cover 6 (G6 V c) (fun t _ => flushed6_eq V c t) fun i => by
    have h0 : (i 0 : Nat) < 100000 := (i 0).isLt
    have h1 : (i 1 : Nat) < 64 := (i 1).isLt
    have hN : (i 0 : Nat) / 5000 < cfg0.N := by rw [show cfg0.N = 20 from N_0]; omega
    refine ⟨⟨(i 0 : Nat) / 5000, hN⟩, flush0_6 _, ?_⟩
    show i ∈ ((View.whole main_v12_0).slice (win0_6.rect ⟨(i 0 : Nat) / 5000, hN⟩)).set
    rw [View.set_slice_whole, Rect.mem_set_unit]
    intro a
    match a with
    | ⟨0, _⟩ => show win0_6.index ⟨(i 0 : Nat) / 5000, hN⟩ 0 * 5000 ≤ (i 0 : Nat) ∧ (i 0 : Nat) < win0_6.index ⟨(i 0 : Nat) / 5000, hN⟩ 0 * 5000 + 5000
                rw [(idx0_6 ⟨(i 0 : Nat) / 5000, hN⟩).1]; dsimp only; omega
    | ⟨1, _⟩ => show win0_6.index ⟨(i 0 : Nat) / 5000, hN⟩ 1 * 64 ≤ (i 1 : Nat) ∧ (i 1 : Nat) < win0_6.index ⟨(i 0 : Nat) / 5000, hN⟩ 1 * 64 + 64
                rw [(idx0_6 ⟨(i 0 : Nat) / 5000, hN⟩).2]; omega

/-! ### The two accumulator rows: written back once, after the last point -/

/-- After the last point the sums row holds the sum over all 100000 rows. -/
theorem last7 (c : Dev nD) (t : Fin cfg0.N) (h19 : t.val = 19) (u : Fin 1) (q : Fin 64) :
    ((outsAt0 V c t.val t.isLt).2.1 : S1x64.Idx → EReal) (ix2 u q) = GcnNorm.colSum (hact V c) q := by
  obtain rfl : u = 0 := Subsingleton.elim _ _
  refine (outs7 V c q t.val t.isLt).trans ?_
  rw [h19]
  refine (sum_rows (hrow V c q)).trans ?_
  unfold GcnNorm.colSum
  exact Finset.sum_congr rfl fun r _ => dif_pos r.isLt

/-- The sums over all rows, as contents of the [1,64] array. -/
def G7 (c : Dev nD) : Buf (Elt Ideal) ((c : Thread nD τ).loc main_v12_1) :=
  fun i : S1x64.Idx => GcnNorm.colSum (hact V c) (i 1)

/-- The one write-back of window 7, at the last point, writes that row: the window's one block is its whole array. -/
theorem flushed7_eq (c : Dev nD) (t : Fin cfg0.N) (hf : (cfg0.win 7).flush t = true) :
    (dat0 V c).flushed 7 t = ((cfg0.win 7).blk t).view.read (Elt Ideal) (G7 V c) := by
  have h19 : t.val = 19 := by have := (flush0_7 t).mp hf; have := tlt t; omega
  funext y
  rw [View.read_apply]
  obtain ⟨u, q, rfl⟩ : ∃ (u : Fin 1) (q : Fin 64), y = (ix2 u q : S1x64.Idx) := ⟨y 0, y 1, eq_ix2 y⟩
  show ((dat0 V c).after 7 t : S1x64.Idx → EReal) _ = _
  rw [cast_eq, after0_7]
  have ex : ((cfg0.win 7).xinj (grid0.coords t) (ix2 u q) : S1x64.Idx) = ix2 u q := by
    funext a
    apply Fin.ext
    match a with
    | ⟨0, _⟩ => rfl
    | ⟨1, _⟩ => rfl
  refine (congrArg ((outsAt0 V c t.val t.isLt).2.1 : S1x64.Idx → EReal) ex).trans ?_
  refine (last7 V c t h19 u q).trans ?_
  have e1 : (((cfg0.win 7).blk t).view.emb (ix2 u q) 1 : Fin 64) = q :=
    Fin.ext (by show win0_7.index t 1 * 64 + 1 * q.val = q.val; rw [(idx0_7 t).2]; omega)
  exact (congrArg (fun q' => GcnNorm.colSum (hact V c) q') e1).symm

/-- So window 7's array ends holding it. -/
theorem final7 (c : Dev nD) : (dat0 V c).arrAt 7 cfg0.N = G7 V c :=
  (dat0 V c).arrAt_eq_of_cover 7 (G7 V c) (flushed7_eq V c) fun i =>
    ⟨tlast, (flush0_7 tlast).mpr rfl, by
      show i ∈ ((View.whole main_v12_1).slice (win0_7.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_7.index tlast 0 * 1 ≤ (i 0 : Nat) ∧ (i 0 : Nat) < win0_7.index tlast 0 * 1 + 1
                  rw [(idx0_7 tlast).1]; omega
      | ⟨1, _⟩ => show win0_7.index tlast 1 * 64 ≤ (i 1 : Nat) ∧ (i 1 : Nat) < win0_7.index tlast 1 * 64 + 64
                  rw [(idx0_7 tlast).2]; omega⟩

/-- After the last point the sums of squares row holds the sum over all 100000 rows. -/
theorem last8 (c : Dev nD) (t : Fin cfg0.N) (h19 : t.val = 19) (u : Fin 1) (q : Fin 64) :
    ((outsAt0 V c t.val t.isLt).2.2 : S1x64.Idx → EReal) (ix2 u q) = GcnNorm.colSum (fun r q => hact V c r q * hact V c r q) q := by
  obtain rfl : u = 0 := Subsingleton.elim _ _
  refine (outs8 V c q t.val t.isLt).trans ?_
  rw [h19]
  refine (sum_rows (h2row V c q)).trans ?_
  unfold GcnNorm.colSum
  exact Finset.sum_congr rfl fun r _ => dif_pos r.isLt

/-- The sums of squares over all rows, as contents of the [1,64] array. -/
def G8 (c : Dev nD) : Buf (Elt Ideal) ((c : Thread nD τ).loc main_v12_2) :=
  fun i : S1x64.Idx => GcnNorm.colSum (fun r q => hact V c r q * hact V c r q) (i 1)

/-- The one write-back of window 8, at the last point, writes that row: the window's one block is its whole array. -/
theorem flushed8_eq (c : Dev nD) (t : Fin cfg0.N) (hf : (cfg0.win 8).flush t = true) :
    (dat0 V c).flushed 8 t = ((cfg0.win 8).blk t).view.read (Elt Ideal) (G8 V c) := by
  have h19 : t.val = 19 := by have := (flush0_8 t).mp hf; have := tlt t; omega
  funext y
  rw [View.read_apply]
  obtain ⟨u, q, rfl⟩ : ∃ (u : Fin 1) (q : Fin 64), y = (ix2 u q : S1x64.Idx) := ⟨y 0, y 1, eq_ix2 y⟩
  show ((dat0 V c).after 8 t : S1x64.Idx → EReal) _ = _
  rw [cast_eq, after0_8]
  have ex : ((cfg0.win 8).xinj (grid0.coords t) (ix2 u q) : S1x64.Idx) = ix2 u q := by
    funext a
    apply Fin.ext
    match a with
    | ⟨0, _⟩ => rfl
    | ⟨1, _⟩ => rfl
  refine (congrArg ((outsAt0 V c t.val t.isLt).2.2 : S1x64.Idx → EReal) ex).trans ?_
  refine (last8 V c t h19 u q).trans ?_
  have e1 : (((cfg0.win 8).blk t).view.emb (ix2 u q) 1 : Fin 64) = q :=
    Fin.ext (by show win0_8.index t 1 * 64 + 1 * q.val = q.val; rw [(idx0_8 t).2]; omega)
  exact (congrArg (fun q' => GcnNorm.colSum (fun r q => hact V c r q * hact V c r q) q') e1).symm

/-- So window 8's array ends holding it. -/
theorem final8 (c : Dev nD) : (dat0 V c).arrAt 8 cfg0.N = G8 V c :=
  (dat0 V c).arrAt_eq_of_cover 8 (G8 V c) (flushed8_eq V c) fun i =>
    ⟨tlast, (flush0_8 tlast).mpr rfl, by
      show i ∈ ((View.whole main_v12_2).slice (win0_8.rect tlast)).set
      rw [View.set_slice_whole, Rect.mem_set_unit]
      intro a
      have h0 : (i 0 : Nat) < 1 := (i 0).isLt
      have h1 : (i 1 : Nat) < 64 := (i 1).isLt
      match a with
      | ⟨0, _⟩ => show win0_8.index tlast 0 * 1 ≤ (i 0 : Nat) ∧ (i 0 : Nat) < win0_8.index tlast 0 * 1 + 1
                  rw [(idx0_8 tlast).1]; omega
      | ⟨1, _⟩ => show win0_8.index tlast 1 * 64 ≤ (i 1 : Nat) ∧ (i 1 : Nat) < win0_8.index tlast 1 * 64 + 64
                  rw [(idx0_8 tlast).2]; omega⟩

end Final

/-- The activation array: block t of it is what point t stores. -/
theorem arr6 (c : Dev nD) (r : Fin 100000) (q : Fin 64) :
    ((dat0 V c).arrAt 6 cfg0.N : S100000x64.Idx → EReal) (ix2 r q) = hact V c r q := by
  rw [final6 V c]
  rfl

/-- The running column sums, after the last point: the sum over all nodes. -/
theorem arr7 (c : Dev nD) (q : Fin 64) :
    ((dat0 V c).arrAt 7 cfg0.N : S1x64.Idx → EReal) (ix2 0 q) = GcnNorm.colSum (hact V c) q := by
  rw [final7 V c]
  rfl

/-- The running column sums of squares, after the last point. -/
theorem arr8 (c : Dev nD) (q : Fin 64) :
    ((dat0 V c).arrAt 8 cfg0.N : S1x64.Idx → EReal) (ix2 0 q) = GcnNorm.colSum (fun r q => hact V c r q * hact V c r q) q := by
  rw [final8 V c]
  rfl

end Cert.KernelIdeal.Reg0

end
-- ==== Proof.KRegion1.lean ====
/- The second kernel region's result array, read at an index: every block the region writes back is the same
   entrywise function of the five operand arrays, and the twenty blocks of 5000 rows tile the array. -/
import proofs.«158067_j1219770712797_1_alg».proof.Proof.Gen.KernelIdeal.Frame
import proofs.«158067_j1219770712797_1_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The five operand arrays as the region finds them, each at its literal type. -/
abbrev hArr (c : Dev nD) : S100000x64.Idx → EReal := V c main_v12_0
abbrev meanRow (c : Dev nD) : S1x64.Idx → EReal := V c main_v24
abbrev invRow (c : Dev nD) : S1x64.Idx → EReal := V c main_v25
abbrev gammaRow (c : Dev nD) : S1x64.Idx → EReal := V c main_v26
abbrev betaRow (c : Dev nD) : S1x64.Idx → EReal := V c main_v27
/-- The region's result array after its last point, at its literal type. -/
abbrev outArr (c : Dev nD) : S100000x64.Idx → EReal := (dat1 V c).arrAt 5 cfg1.N

theorem zero_offsets : (![0, 0] : Fin 2 → Nat) = fun _ => 0 := funext fun a => by fin_cases a <;> rfl

/-- The body's stored value at an index of its block: the block entry minus the mean row's entry, times the
    inverse-deviation row's, times the scale row's, plus the shift row's. -/
theorem pay_apply (x0 : S5000x64.Idx → EReal) (x1 x2 x3 x4 : S1x64.Idx → EReal) (p : Fin 5000) (q : Fin 64) :
    (k1_pay1 (F := Ideal) x0 x1 x2 x3 x4 : S5000x64.Idx → EReal) (ix2 p q)
      = (x0 (ix2 p q) - x1 (ix2 0 q)) * x2 (ix2 0 q) * x3 (ix2 0 q) + x4 (ix2 0 q) := by
  unfold k1_pay1
  simp only [shapeCast_self, addf_apply, mulf_apply, subf_apply]
  rw [broadcastTo_1b_ab_apply, broadcastTo_1b_ab_apply, broadcastTo_1b_ab_apply, broadcastTo_1b_ab_apply]

/-- The windows' block indices at every grid point: the big blocks move with the point, the rows stay. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem blk1_apply (c : Dev nD) (t : Fin cfg1.N) (y : S1x64.Idx) :
    (iblk1 V c 1 t : S1x64.Idx → EReal) y = meanRow V c y := by
  obtain ⟨-, -, -, -, e0, e1, -⟩ := idx_facts t
  unfold iblk1
  rw [View.read_apply]
  show V c main_v24 _ = V c main_v24 _
  congr 1
  funext a
  apply Fin.ext
  match a with
  | ⟨0, _⟩ => show win1_1.index t 0 * 1 + 1 * (y 0).val = (y 0).val; rw [e0]; omega
  | ⟨1, _⟩ => show win1_1.index t 1 * 64 + 1 * (y 1).val = (y 1).val; rw [e1]; omega

theorem blk2_apply (c : Dev nD) (t : Fin cfg1.N) (y : S1x64.Idx) :
    (iblk1 V c 2 t : S1x64.Idx → EReal) y = invRow V c y := by
  obtain ⟨-, -, -, -, -, -, e0, e1, -⟩ := idx_facts t
  unfold iblk1
  rw [View.read_apply]
  show V c main_v25 _ = V c main_v25 _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

theorem blk3_apply (c : Dev nD) (t : Fin cfg1.N) (y : S1x64.Idx) :
    (iblk1 V c 3 t : S1x64.Idx → EReal) y = gammaRow V c y := by
  obtain ⟨-, -, -, -, -, -, -, -, e0, e1, -⟩ := idx_facts t
  unfold iblk1
  rw [View.read_apply]
  show V c main_v26 _ = V c main_v26 _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

theorem blk4_apply (c : Dev nD) (t : Fin cfg1.N) (y : S1x64.Idx) :
    (iblk1 V c 4 t : S1x64.Idx → EReal) y = betaRow V c y := by
  obtain ⟨-, -, -, -, -, -, -, -, -, -, e0, e1⟩ := idx_facts t
  unfold iblk1
  rw [View.read_apply]
  show V c main_v27 _ = V c main_v27 _
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

/-- The whole result array as one function of the five operand arrays: entry (r, q) is
    (h r q − mean q) · invstd q · γ q + β q. -/
def G (c : Dev nD) : S100000x64.Idx → EReal := fun i =>
  (hArr V c i - meanRow V c (ix2 0 (i 1))) * invRow V c (ix2 0 (i 1)) * gammaRow V c (ix2 0 (i 1)) + betaRow V c (ix2 0 (i 1))

/-- What point t writes back is block t of that function. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero zero_offsets]
  simp only [View.ld_unit_zero (S := S5000x64) zero_offsets, View.ld_unit_zero (S := S1x64) zero_offsets]
  obtain ⟨-, -, e0, e1, -⟩ := idx_facts t
  funext j
  obtain ⟨p, q, rfl⟩ : ∃ (p : Fin 5000) (q : Fin 64), j = ix2 p q := ⟨j 0, j 1, eq_ix2 j⟩
  refine (pay_apply _ _ _ _ _ p q).trans ?_
  rw [blk1_apply, blk2_apply, blk3_apply, blk4_apply, View.read_apply]
  have hk : (((cfg1.win 5).blk t).view.emb (ix2 p q) : S100000x64.Idx) 1 = q := by
    apply Fin.ext
    show win1_5.index t 1 * 64 + 1 * q.val = q.val
    rw [e1]; omega
  show _ = (hArr V c _ - meanRow V c (ix2 0 _)) * invRow V c (ix2 0 _) * gammaRow V c (ix2 0 _) + betaRow V c (ix2 0 _)
  rw [hk]
  congr 5

/-- An index of the result array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v28).slice (win1_5.rect t)).set ↔ _
  rw [View.set_slice_whole, Rect.mem_set_unit]
  exact Iff.rfl

/-- Every index of the result array lies in the block of the point its row divided by 5000 names. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have ht : t.val = (i 0).val / 5000 := rfl
  obtain ⟨-, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 64 ≤ (i 1).val ∧ (i 1).val < win1_5.index t (1 : Fin 2) * 64 + 64; rw [e1]; omega

/-- The result array after the last point is that function. -/
theorem final (c : Dev nD) : (dat1 V c).arrAt 5 cfg1.N = G V c :=
  (dat1 V c).arrAt_eq_of_cover 5 (G V c) (fun t _ => flushed_eq V c t) cover

/-- After the normalising region, entry (r, q) of its result array is (h − mean) · invstd · γ + β of the entries the
    region found in its five operand arrays (the four rows read at their one row). -/
theorem arr5 (c : Dev nD) (r : Fin 100000) (q : Fin 64) :
    outArr V c (ix2 r q)
      = (hArr V c (ix2 r q) - meanRow V c (ix2 0 q)) * invRow V c (ix2 0 q) * gammaRow V c (ix2 0 q) + betaRow V c (ix2 0 q) := by
  show (dat1 V c).arrAt 5 cfg1.N (ix2 r q) = _
  rw [final]
  rfl

end Cert.KernelIdeal.Reg1

end
-- ==== Proof.KValue.lean ====
/-
  The kernel program's result array, read at an index, as a function of the argument arrays.

  The run's last boundary contents are a fold through @main: the host operations before the first region give the
  neighbourhood sums and the two bias rows; the first region leaves the activation array and its column sums and column
  sums of squares; the host operations between the regions turn those into the mean row and the inverse-deviation row
  (one-pass variance); the second region normalises the activation array row by row.  Composed, entry (r, q) of the
  result is  (act − mean) · rsqrt (mean of squares − mean² + ε) · γ + β .
-/
import proofs.«158067_j1219770712797_1_alg».proof.Proof.Gen.KernelIdeal.Frame
import proofs.«158067_j1219770712797_1_alg».proof.Proof.Spec
import proofs.«158067_j1219770712797_1_alg».proof.Proof.KHost
import proofs.«158067_j1219770712797_1_alg».proof.Proof.KRegion0
import proofs.«158067_j1219770712797_1_alg».proof.Proof.KRegion1

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

/-- The activation of the kernel program, from the launch contents of the arguments. -/
def hK (c : Dev nD) : Fin 100000 → Fin 64 → EReal :=
  GcnNorm.act (fun r k => HostV.aggK (F := Ideal) (m ((c.tc : Thread nD τ).loc main_arg0)) (m ((c.tc : Thread nD τ).loc main_arg1)) (m ((c.tc : Thread nD τ).loc main_arg2)) (ix2 r k))
    (fun r k => ((m ((c.tc : Thread nD τ).loc main_arg0)) : S100000x64.Idx → EReal) (ix2 r k))
    (fun k q => ((m ((c.tc : Thread nD τ).loc main_arg3)) : S64x64.Idx → EReal) (ix2 k q))
    (fun k q => ((m ((c.tc : Thread nD τ).loc main_arg5)) : S64x64.Idx → EReal) (ix2 k q))
    (fun q => ((m ((c.tc : Thread nD τ).loc main_arg4)) : S64.Idx → EReal) (ix1 q))
    (fun q => ((m ((c.tc : Thread nD τ).loc main_arg6)) : S64.Idx → EReal) (ix1 q))

/-- The launch valuation read at an argument is the launch memory there. -/
theorem W0_eq (c : Dev nD) (b : Ref sig .tc) : W0 m ρ c (Proc.devRef .tc b) = m ((c : Thread nD τ).loc b) := rfl

/-- What the first region finds: its activation is the activation of the launch contents. -/
theorem hact_eq (c : Dev nD) : Reg0.hact (V1 m ρ) c = hK m c := by
  unfold Reg0.hact hK
  have e9 : (V1 m ρ c main_v9 : S100000x64.Idx → EReal)
      = HostV.aggK (F := Ideal) (m ((c.tc : Thread nD τ).loc main_arg0)) (m ((c.tc : Thread nD τ).loc main_arg1)) (m ((c.tc : Thread nD τ).loc main_arg2)) := HostV.s0_v9 (W0 m ρ c)
  have e0 : (V1 m ρ c main_arg0 : S100000x64.Idx → EReal) = (m ((c.tc : Thread nD τ).loc main_arg0)) := HostV.s0_arg0 (W0 m ρ c)
  have e3 : (V1 m ρ c main_arg3 : S64x64.Idx → EReal) = (m ((c.tc : Thread nD τ).loc main_arg3)) := HostV.s0_arg3 (W0 m ρ c)
  have e5 : (V1 m ρ c main_arg5 : S64x64.Idx → EReal) = (m ((c.tc : Thread nD τ).loc main_arg5)) := HostV.s0_arg5 (W0 m ρ c)
  have e10 : ∀ q : Fin 64, (V1 m ρ c main_v10 : S1x64.Idx → EReal) (ix2 0 q) = ((m ((c.tc : Thread nD τ).loc main_arg4)) : S64.Idx → EReal) (ix1 q) := fun q =>
    (congrFun (HostV.s0_v10 (W0 m ρ c)) (ix2 0 q)).trans (HostV.reshape_row _ q)
  have e11 : ∀ q : Fin 64, (V1 m ρ c main_v11 : S1x64.Idx → EReal) (ix2 0 q) = ((m ((c.tc : Thread nD τ).loc main_arg6)) : S64.Idx → EReal) (ix1 q) := fun q =>
    (congrFun (HostV.s0_v11 (W0 m ρ c)) (ix2 0 q)).trans (HostV.reshape_row _ q)
  rw [e9, e0, e3, e5]
  simp only [e10, e11]

/-- The first region's three result arrays, in the contents the second host stretch starts from. -/
theorem W2_h (c : Dev nD) (r : Fin 100000) (q : Fin 64) :
    (W2 m ρ c (Proc.devRef .tc main_v12_0) : S100000x64.Idx → EReal) (ix2 r q) = hK m c r q := by
  rw [show W2 m ρ c (Proc.devRef .tc main_v12_0) = (dat0 (V1 m ρ) c).arrAt 6 cfg0.N from W2_arr m ρ c 6]
  exact (Reg0.arr6 (V1 m ρ) c r q).trans (congrFun (congrFun (hact_eq m ρ c) r) q)
theorem W2_s (c : Dev nD) (q : Fin 64) :
    (W2 m ρ c (Proc.devRef .tc main_v12_1) : S1x64.Idx → EReal) (ix2 0 q) = GcnNorm.colSum (hK m c) q := by
  rw [show W2 m ρ c (Proc.devRef .tc main_v12_1) = (dat0 (V1 m ρ) c).arrAt 7 cfg0.N from W2_arr m ρ c 7]
  exact (Reg0.arr7 (V1 m ρ) c q).trans (by rw [hact_eq])
theorem W2_ss (c : Dev nD) (q : Fin 64) :
    (W2 m ρ c (Proc.devRef .tc main_v12_2) : S1x64.Idx → EReal) (ix2 0 q) = GcnNorm.colSum (fun r q => hK m c r q * hK m c r q) q := by
  rw [show W2 m ρ c (Proc.devRef .tc main_v12_2) = (dat0 (V1 m ρ) c).arrAt 8 cfg0.N from W2_arr m ρ c 8]
  exact (Reg0.arr8 (V1 m ρ) c q).trans (by rw [hact_eq])

/-- The scale and shift rows reach the second host stretch as launched. -/
theorem W2_arg7 (c : Dev nD) : W2 m ρ c (Proc.devRef .tc main_arg7) = m ((c : Thread nD τ).loc main_arg7) :=
  (W2_of_ne m ρ c main_arg7 (by decide)).trans (HostV.s0_arg7 (W0 m ρ c))
theorem W2_arg8 (c : Dev nD) : W2 m ρ c (Proc.devRef .tc main_arg8) = m ((c : Thread nD τ).loc main_arg8) :=
  (W2_of_ne m ρ c main_arg8 (by decide)).trans (HostV.s0_arg8 (W0 m ρ c))

/-- The result array at (r, q): the normalised activation, with the one-pass variance. -/
theorem value (c : Dev nD) (r : Fin 100000) (q : Fin 64) :
    (W4 m ρ c (Proc.devRef .tc main_v28) : S100000x64.Idx → EReal) (ix2 r q)
      = GcnNorm.outK (hK m c) (fun q => ((m ((c.tc : Thread nD τ).loc main_arg7)) : S64.Idx → EReal) (ix1 q))
          (fun q => ((m ((c.tc : Thread nD τ).loc main_arg8)) : S64.Idx → EReal) (ix1 q)) r q := by
  rw [show W4 m ρ c (Proc.devRef .tc main_v28) = (dat1 (V3 m ρ) c).arrAt 5 cfg1.N from W4_arr m ρ c 5]
  refine (Reg1.arr5 (V3 m ρ) c r q).trans ?_
  have eh : Reg1.hArr (V3 m ρ) c (ix2 r q) = hK m c r q := by
    show (W3 m ρ c (Proc.devRef .tc main_v12_0) : S100000x64.Idx → EReal) (ix2 r q) = _
    rw [show W3 m ρ c (Proc.devRef .tc main_v12_0) = W2 m ρ c (Proc.devRef .tc main_v12_0) from HostV.s1_v12_0 (W2 m ρ c)]
    exact W2_h m ρ c r q
  have em : Reg1.meanRow (V3 m ρ) c (ix2 0 q) = GcnNorm.mean (hK m c) q := by
    show (W3 m ρ c (Proc.devRef .tc main_v24) : S1x64.Idx → EReal) (ix2 0 q) = _
    rw [show (W3 m ρ c (Proc.devRef .tc main_v24) : S1x64.Idx → EReal) (ix2 0 q) = _ from HostV.s1_v24 (W2 m ρ c) q, W2_s]
    rfl
  have ei : Reg1.invRow (V3 m ρ) c (ix2 0 q) = Ideal.rsqrt (GcnNorm.varK (hK m c) q + GcnNorm.epsLit) := by
    show (W3 m ρ c (Proc.devRef .tc main_v25) : S1x64.Idx → EReal) (ix2 0 q) = _
    rw [show (W3 m ρ c (Proc.devRef .tc main_v25) : S1x64.Idx → EReal) (ix2 0 q) = _ from HostV.s1_v25 (W2 m ρ c) q, W2_s, W2_ss]
    rfl
  have eg : Reg1.gammaRow (V3 m ρ) c (ix2 0 q) = ((m ((c.tc : Thread nD τ).loc main_arg7)) : S64.Idx → EReal) (ix1 q) := by
    show (W3 m ρ c (Proc.devRef .tc main_v26) : S1x64.Idx → EReal) (ix2 0 q) = _
    rw [show (W3 m ρ c (Proc.devRef .tc main_v26) : S1x64.Idx → EReal) (ix2 0 q) = _ from HostV.s1_v26 (W2 m ρ c) q, W2_arg7]
  have eb : Reg1.betaRow (V3 m ρ) c (ix2 0 q) = ((m ((c.tc : Thread nD τ).loc main_arg8)) : S64.Idx → EReal) (ix1 q) := by
    show (W3 m ρ c (Proc.devRef .tc main_v27) : S1x64.Idx → EReal) (ix2 0 q) = _
    rw [show (W3 m ρ c (Proc.devRef .tc main_v27) : S1x64.Idx → EReal) (ix2 0 q) = _ from HostV.s1_v27 (W2 m ρ c) q, W2_arg8]
  rw [eh, em, ei, eg, eb]
  rfl

end Cert.KernelIdeal.KV

end
-- ==== Proof.RefRun.lean ====
/- The reference's run and its result read at an index. -/
import proofs.«158067_j1219770712797_1_alg».proof.ReferenceIdeal
import proofs.«158067_j1219770712797_1_alg».proof.Proof.Gen.ReferenceIdeal
import proofs.«158067_j1219770712797_1_alg».proof.Proof.Spec
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic
import Idealize.ShloMosaic.Lib.IdealHost

set_option maxRecDepth 16384

noncomputable section

open Idealize.ShloMosaic Idealize.ShloMosaic.TcCoe Idealize.SL.Sem
open Idealize.ShloMosaic.ValueIdx

namespace Cert.ReferenceIdeal.RefV

open Cert.ReferenceIdeal Cert.ReferenceIdeal.Gen

variable {F : FTy → Type} [FloatOps F]

/-- The neighbourhood sums as the reference computes them: negative source indices wrapped, the source rows gathered,
    and scatter-added into a zero array at the destination indices. -/
def aggR (feats : FVec F S100000x64 .f32) (src dst : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 feats
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## The result as a composed term -/

/-- The all-zero array a maximum compares with. -/
def zeroA : FVec F S100000x64 .f32 :=
  broadcastInDim S100000x64 ![] bcast_S_S100000x64 (constant S_ .f32 0x00000000#32)

/-- A channel vector repeated on every row (through a one-row array). -/
def rowB (v : FVec F S64 .f32) : FVec F S100000x64 .f32 :=
  broadcastInDim S100000x64 ![0, 1] bcast_S1x64_S100000x64_0_1 (broadcastInDim S1x64 ![1] bcast_S64_S1x64_1 v)

/-- A scalar word repeated on every channel. -/
def chanC (b : BitVec 32) : FVec F S64 .f32 := broadcastInDim S64 ![] bcast_S_S64 (constant S_ .f32 b)

/-- The activation: two linear maps with bias, each followed by a maximum with zero, added. -/
def actV (a x0 : FVec F S100000x64 .f32) (x3 : FVec F S64x64 .f32) (x4 : FVec F S64 .f32) (x5 : FVec F S64x64 .f32)
    (x6 : FVec F S64 .f32) : FVec F S100000x64 .f32 :=
  addf (maximumf (addf (Host.dotGeneral dot_S100000x64_S64x64_S100000x64_1_0_0_1_n_n none a x3) (rowB x4)) zeroA)
    (maximumf (addf (Host.dotGeneral dot_S100000x64_S64x64_S100000x64_1_0_0_1_n_n none x0 x5) (rowB x6)) zeroA)

/-- The per-channel sum over the rows, from the zero word. -/
def colSumV (h : FVec F S100000x64 .f32) : FVec F S64 .f32 :=
  Host.reduceAdd h (constant S_ .f32 0x00000000#32) reducesTo_S100000x64_S64_d0 h_S_

/-- The per-channel mean: the sum divided by the count word. -/
def meanV (h : FVec F S100000x64 .f32) : FVec F S64 .f32 := Host.divf (colSumV h) (chanC 0x47C35000#32)

/-- The variance's divisor: the count word minus the converted integer zero (no degrees of freedom removed). -/
def cntV : FVec F S_ .f32 := subf (constant S_ .f32 0x47C35000#32) (sitofp .f32 (constantI S_ 32 0#32))

/-- The deviations from the mean, the mean taken through a one-row array. -/
def devV (h : FVec F S100000x64 .f32) : FVec F S100000x64 .f32 :=
  subf h (broadcastInDim S100000x64 ![0, 1] bcast_S1x64_S100000x64_0_1
    (Host.divf (broadcastInDim S1x64 ![1] bcast_S64_S1x64_1 (colSumV h))
      (broadcastInDim S1x64 ![] bcast_S_S1x64 (constant S_ .f32 0x47C35000#32))))

/-- The centred variance: the mean of the squared deviations where the divisor is positive, the NaN word elsewhere. -/
def varV (h : FVec F S100000x64 .f32) : FVec F S64 .f32 :=
  select (broadcastInDim S64 ![] bcast_S_S64 (cmpf .ogt (cntV (F := F)) (constant S_ .f32 0x00000000#32)))
    (Host.divf (Host.reduceAdd (mulf (devV h) (devV h)) (constant S_ .f32 0x00000000#32) reducesTo_S100000x64_S64_d0 h_S_)
      (broadcastInDim S64 ![] bcast_S_S64 cntV))
    (broadcastInDim S64 ![] bcast_S_S64 (constant S_ .f32 0x7FC00000#32))

/-- The normalisation: centred, scaled by the reciprocal root of variance plus offset, then the affine map. -/
def normV (h : FVec F S100000x64 .f32) (x7 x8 : FVec F S64 .f32) : FVec F S100000x64 .f32 :=
  addf (mulf (mulf (subf h (rowB (meanV h))) (rowB (Host.rsqrt (addf (varV h) (chanC 0x3727C5AC#32))))) (rowB x7)) (rowB x8)

/-- The reference's result array as one function of its nine argument arrays (the composed host operations). -/
def refOut (x0 : FVec F S100000x64 .f32) (x1 x2 : IVec S1600000 32) (x3 : FVec F S64x64 .f32) (x4 : FVec F S64 .f32)
    (x5 : FVec F S64x64 .f32) (x6 x7 x8 : FVec F S64 .f32) : FVec F S100000x64 .f32 :=
  normV (actV (aggR x0 x1 x2) x0 x3 x4 x5 x6) x7 x8

/-! ## The run -/

/-- The reference's operations in order, each called function's operations inline at its call over the call's buffers. -/
abbrev ops : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst (constant S_ .f32 0x00000000#32),
    StableHlo.unary main_cst main_v7 (broadcastInDim S100000x64 ![] bcast_S_S100000x64 : (⟨S_, .f32⟩ : BufTy).Contents (Elt F) → (⟨S100000x64, .f32⟩ : BufTy).Contents (Elt F)),
    StableHlo.unary main_arg2 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.binary main_v9 main_arg3 main_v10 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v10 main_v12 main_v13 (addf : (⟨S100000x64, .f32⟩ : BufTy).Contents (Elt F) → (⟨S100000x64, .f32⟩ : BufTy).Contents (Elt F) → (⟨S100000x64, .f32⟩ : BufTy).Contents (Elt F)),
    StableHlo.TRef.nullary main_call0.cst (constant S_ .f32 0x00000000#32),
    StableHlo.TRef.unary main_call0.cst main_call0.v0 (broadcastInDim S100000x64 ![] bcast_S_S100000x64),
    StableHlo.TRef.binary (.of main_v13) main_call0.v0 main_call0.v1 maximumf,
    StableHlo.binary main_arg0 main_arg5 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S100000x64 ![0, 1] bcast_S1x64_S100000x64_0_1 : (⟨S1x64, .f32⟩ : BufTy).Contents (Elt F) → (⟨S100000x64, .f32⟩ : BufTy).Contents (Elt F)),
    StableHlo.binary main_v15 main_v17 main_v18 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v18) main_call1.v0 main_call1.v1 maximumf,
    StableHlo.binary main_v14 main_v19 main_v20 (addf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x00000000#32),
    StableHlo.binary main_v20 main_cst_1 main_v21 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_2 (constant S_ .f32 0x47C35000#32),
    StableHlo.unary main_cst_2 main_v22 (broadcastInDim S64 ![] bcast_S_S64 : (⟨S_, .f32⟩ : BufTy).Contents (Elt F) → (⟨S64, .f32⟩ : BufTy).Contents (Elt F)),
    StableHlo.binary main_v21 main_v22 main_v23 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call2.cst (constant S_ .f32 0x00000000#32),
    StableHlo.TRef.binary (.of main_v20) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v20) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v23 main_v25 (broadcastInDim S1x64 ![1] bcast_S64_S1x64_1 : (⟨S64, .f32⟩ : BufTy).Contents (Elt F) → (⟨S1x64, .f32⟩ : BufTy).Contents (Elt F)),
    StableHlo.unary main_v25 main_v26 (broadcastInDim S100000x64 ![0, 1] bcast_S1x64_S100000x64_0_1 : (⟨S1x64, .f32⟩ : BufTy).Contents (Elt F) → (⟨S100000x64, .f32⟩ : BufTy).Contents (Elt F)),
    StableHlo.binary main_v20 main_v26 main_v27 (subf : (⟨S100000x64, .f32⟩ : BufTy).Contents (Elt F) → (⟨S100000x64, .f32⟩ : BufTy).Contents (Elt F) → (⟨S100000x64, .f32⟩ : BufTy).Contents (Elt F)),
    StableHlo.nullary main_cst_4 (constant S_ .f32 0x3727C5AC#32),
    StableHlo.unary main_cst_4 main_v28 (broadcastInDim S64 ![] bcast_S_S64 : (⟨S_, .f32⟩ : BufTy).Contents (Elt F) → (⟨S64, .f32⟩ : BufTy).Contents (Elt F)),
    StableHlo.binary main_v24 main_v28 main_v29 (addf : (⟨S64, .f32⟩ : BufTy).Contents (Elt F) → (⟨S64, .f32⟩ : BufTy).Contents (Elt F) → (⟨S64, .f32⟩ : BufTy).Contents (Elt F)),
    StableHlo.unary main_v29 main_v30 (Host.rsqrt : (⟨S64, .f32⟩ : BufTy).Contents (Elt F) → (⟨S64, .f32⟩ : BufTy).Contents (Elt F)),
    StableHlo.unary main_v30 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v32 main_v33 (mulf : (⟨S100000x64, .f32⟩ : BufTy).Contents (Elt F) → (⟨S100000x64, .f32⟩ : BufTy).Contents (Elt F) → (⟨S100000x64, .f32⟩ : BufTy).Contents (Elt F)),
    StableHlo.unary main_arg7 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S100000x64 ![0, 1] bcast_S1x64_S100000x64_0_1 : (⟨S1x64, .f32⟩ : BufTy).Contents (Elt F) → (⟨S100000x64, .f32⟩ : BufTy).Contents (Elt F)),
    StableHlo.binary main_v33 main_v35 main_v36 (mulf : (⟨S100000x64, .f32⟩ : BufTy).Contents (Elt F) → (⟨S100000x64, .f32⟩ : BufTy).Contents (Elt F) → (⟨S100000x64, .f32⟩ : BufTy).Contents (Elt F)),
    StableHlo.unary main_arg8 main_v37 (broadcastInDim S1x64 ![1] bcast_S64_S1x64_1 : (⟨S64, .f32⟩ : BufTy).Contents (Elt F) → (⟨S1x64, .f32⟩ : BufTy).Contents (Elt F)),
    StableHlo.unary main_v37 main_v38 (broadcastInDim S100000x64 ![0, 1] bcast_S1x64_S100000x64_0_1 : (⟨S1x64, .f32⟩ : BufTy).Contents (Elt F) → (⟨S100000x64, .f32⟩ : BufTy).Contents (Elt F)),
    StableHlo.binary main_v36 main_v38 main_v39 (addf : (⟨S100000x64, .f32⟩ : BufTy).Contents (Elt F) → (⟨S100000x64, .f32⟩ : BufTy).Contents (Elt F) → (⟨S100000x64, .f32⟩ : BufTy).Contents (Elt F)) ]

set_option maxRecDepth 4096 in
set_option maxHeartbeats 4000000 in
/-- The program is that straight line: the called functions unfolded at their calls, sequencing reassociated. -/
theorem main_eq (c : Dev nD) : main (F := F) c = StableHlo.seq ops := by
  simp only [main, fn_relu.body, fn_var.body, fn_where.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

set_option maxHeartbeats 1600000 in
/-- The fold at the result buffer is the composed term. -/
theorem out_eq (V : Valuation τ sig (Elt F)) :
    StableHlo.after ops V (main_v39 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  open StableHlo in after_results_simp
  rfl

/-- No operation writes an argument's buffer. -/
theorem arg0_eq (V : Valuation τ sig (Elt F)) :
    StableHlo.after ops V (main_arg0 : DevRef τ sig) = V (main_arg0 : DevRef τ sig) := by
  open StableHlo in after_results_simp

theorem arg1_eq (V : Valuation τ sig (Elt F)) :
    StableHlo.after ops V (main_arg1 : DevRef τ sig) = V (main_arg1 : DevRef τ sig) := by
  open StableHlo in after_results_simp

theorem arg2_eq (V : Valuation τ sig (Elt F)) :
    StableHlo.after ops V (main_arg2 : DevRef τ sig) = V (main_arg2 : DevRef τ sig) := by
  open StableHlo in after_results_simp

theorem arg3_eq (V : Valuation τ sig (Elt F)) :
    StableHlo.after ops V (main_arg3 : DevRef τ sig) = V (main_arg3 : DevRef τ sig) := by
  open StableHlo in after_results_simp

theorem arg4_eq (V : Valuation τ sig (Elt F)) :
    StableHlo.after ops V (main_arg4 : DevRef τ sig) = V (main_arg4 : DevRef τ sig) := by
  open StableHlo in after_results_simp

theorem arg5_eq (V : Valuation τ sig (Elt F)) :
    StableHlo.after ops V (main_arg5 : DevRef τ sig) = V (main_arg5 : DevRef τ sig) := by
  open StableHlo in after_results_simp

theorem arg6_eq (V : Valuation τ sig (Elt F)) :
    StableHlo.after ops V (main_arg6 : DevRef τ sig) = V (main_arg6 : DevRef τ sig) := by
  open StableHlo in after_results_simp

theorem arg7_eq (V : Valuation τ sig (Elt F)) :
    StableHlo.after ops V (main_arg7 : DevRef τ sig) = V (main_arg7 : DevRef τ sig) := by
  open StableHlo in after_results_simp

theorem arg8_eq (V : Valuation τ sig (Elt F)) :
    StableHlo.after ops V (main_arg8 : DevRef τ sig) = V (main_arg8 : DevRef τ sig) := by
  open StableHlo in after_results_simp

/-- Every weakly fair execution of the reference terminates, nothing faulting, with its result at `refOut` of the
    launch contents of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  exact (θ_run defs _ _).mono (fun _ h c => ⟨(h c main_v39).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (StableHlo.run_seq scopedRefs_eq scopedSems_eq defs main (fun _ => ops) main_eq (fun _ => ops_sub) m ρ)

/-! ## The result read at an index, at the extended reals -/

section Value

/-- A one-row array repeated on every row reads its one row. -/
theorem row1_apply {α : Type} (v : S1x64.Idx → α) (r : Fin 100000) (q : Fin 64) :
    broadcastInDim S100000x64 ![0, 1] bcast_S1x64_S100000x64_0_1 v (ix2 r q) = v (ix2 0 q) :=
  broadcastInDim_apply ![0, 1] _ v (ix2 r q) (ix2 0 q) (by
    intro a
    match a with
    | ⟨0, _⟩ => rfl
    | ⟨1, _⟩ => rfl)

/-- A channel vector placed as a one-row array reads the channel. -/
theorem lift1_apply {α : Type} (v : S64.Idx → α) (q : Fin 64) :
    broadcastInDim S1x64 ![1] bcast_S64_S1x64_1 v (ix2 0 q) = v (ix1 q) :=
  broadcastInDim_apply ![1] _ v (ix2 0 q) (ix1 q) (by
    intro a
    match a with
    | ⟨0, _⟩ => rfl)

theorem rowB_apply (v : FVec Ideal S64 .f32) (r : Fin 100000) (q : Fin 64) : rowB v (ix2 r q) = v (ix1 q) := by
  unfold rowB
  rw [row1_apply, lift1_apply]

theorem zeroA_apply (j : S100000x64.Idx) : zeroA (F := Ideal) j = 0 := by
  unfold zeroA
  rw [broadcastInDim_scalar_apply, constant_apply, Ideal.ofBits_zero_f32]

theorem chanC_apply (b : BitVec 32) (j : S64.Idx) : chanC (F := Ideal) b j = Ideal.ofBits .f32 b := by
  unfold chanC
  rw [broadcastInDim_scalar_apply, constant_apply]

/-! ### The contraction -/

theorem lhs_dot_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem lhs_dot_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_dot_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_dot_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The product of a [100000, 64] array with a [64, 64] one at (r, q): the sum over the shared axis. -/
theorem dot_apply (a : FVec Ideal S100000x64 .f32) (w : FVec Ideal S64x64 .f32) (r : Fin 100000) (q : Fin 64) :
    Host.dotGeneral (F := Ideal) dot_S100000x64_S64x64_S100000x64_1_0_0_1_n_n none a w (ix2 r q) = ∑ k : Fin 64, a (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q) ((ValueIdx.contrEquiv1 dot_S100000x64_S64x64_S100000x64_1_0_0_1_n_n 64 rfl rfl).symm k) = ix2 r k :=
    funext fun a => Fin.ext (by
      match a with
      | ⟨0, _⟩ => exact lhs_dot_0 _ _
      | ⟨1, _⟩ => exact (lhs_dot_1 _ _).trans hk)
  have er : dot_S100000x64_S64x64_S100000x64_1_0_0_1_n_n.rhsIdx (ix2 r q) ((ValueIdx.contrEquiv1 dot_S100000x64_S64x64_S100000x64_1_0_0_1_n_n 64 rfl rfl).symm k) = ix2 k q :=
    funext fun a => Fin.ext (by
      match a with
      | ⟨0, _⟩ => exact (rhs_dot_0 _ _).trans hk
      | ⟨1, _⟩ => exact rhs_dot_1 _ _)
  rw [el, er]

/-! ### The sums over the rows -/

/-- A sum over the row axis from the zero word, at channel q: the sum over the rows. -/
theorem reduce0_apply (x : FVec Ideal S100000x64 .f32) (q : Fin 64) :
    Host.reduceAdd (F := Ideal) x (constant S_ .f32 0x00000000#32) reducesTo_S100000x64_S64_d0 h_S_ (ix1 q)
      = ∑ r : Fin 100000, x (ix2 r q) := by
  simp only [Host.reduceAdd, Ideal.hostReduceAdd_def]
  rw [Ideal.hostReduceAdd_single reducesTo_S100000x64_S64_d0 (by decide), constant_apply, Ideal.ofBits_zero_f32, zero_add]
  refine Finset.sum_congr rfl fun k _ => ?_
  exact congrArg x (funext fun a => Fin.ext (by match a with | ⟨0, _⟩ => rfl | ⟨1, _⟩ => rfl))

theorem colSumV_apply (h : FVec Ideal S100000x64 .f32) (q : Fin 64) :
    colSumV h (ix1 q) = GcnNorm.colSum (fun r q => h (ix2 r q)) q := by
  unfold colSumV GcnNorm.colSum
  exact reduce0_apply h q

theorem meanV_apply (h : FVec Ideal S100000x64 .f32) (q : Fin 64) :
    meanV h (ix1 q) = GcnNorm.mean (fun r q => h (ix2 r q)) q := by
  unfold meanV GcnNorm.mean
  show Ideal.div (colSumV h (ix1 q)) (chanC (F := Ideal) 0x47C35000#32 (ix1 q)) = _
  rw [colSumV_apply, chanC_apply]

/-! ### The activation -/

theorem actV_apply (a x0 : FVec Ideal S100000x64 .f32) (x3 : FVec Ideal S64x64 .f32) (x4 : FVec Ideal S64 .f32)
    (x5 : FVec Ideal S64x64 .f32) (x6 : FVec Ideal S64 .f32) (r : Fin 100000) (q : Fin 64) :
    actV a x0 x3 x4 x5 x6 (ix2 r q)
      = GcnNorm.act (fun r k => a (ix2 r k)) (fun r k => x0 (ix2 r k)) (fun k q => x3 (ix2 k q)) (fun k q => x5 (ix2 k q))
          (fun q => x4 (ix1 q)) (fun q => x6 (ix1 q)) r q := by
  unfold actV GcnNorm.act
  simp only [addf_apply, maximumf_apply, dot_apply, rowB_apply, zeroA_apply]

/-! ### The variance -/

/-- The divisor is the count word: the converted integer zero is the real zero. -/
theorem cntV_apply (j : S_.Idx) : cntV (F := Ideal) j = GcnNorm.nLit := by
  unfold cntV
  rw [subf_apply, constant_apply]
  show GcnNorm.nLit - (((0#32 : BitVec 32).toInt : ℝ) : EReal) = GcnNorm.nLit
  have : ((0#32 : BitVec 32).toInt : ℝ) = 0 := by simp
  rw [this, EReal.coe_zero, sub_zero]

theorem nLit_pos : (0 : EReal) < GcnNorm.nLit := by
  rw [GcnNorm.nLit_eq]
  exact EReal.coe_pos.mpr (by norm_num)

theorem devV_apply (h : FVec Ideal S100000x64 .f32) (r : Fin 100000) (q : Fin 64) :
    devV h (ix2 r q) = h (ix2 r q) - GcnNorm.mean (fun r q => h (ix2 r q)) q := by
  unfold devV GcnNorm.mean
  rw [subf_apply, row1_apply]
  show _ - Ideal.div (broadcastInDim S1x64 ![1] bcast_S64_S1x64_1 (colSumV h) (ix2 0 q))
      (broadcastInDim S1x64 ![] bcast_S_S1x64 (constant (F := Ideal) S_ .f32 0x47C35000#32) (ix2 0 q)) = _
  rw [lift1_apply, colSumV_apply, broadcastInDim_scalar_apply, constant_apply]

theorem varV_apply (h : FVec Ideal S100000x64 .f32) (q : Fin 64) :
    varV h (ix1 q) = GcnNorm.varR (fun r q => h (ix2 r q)) q := by
  unfold varV GcnNorm.varR GcnNorm.colSum
  rw [select_apply, broadcastInDim_scalar_apply, cmpf_apply, cntV_apply, constant_apply, Ideal.ofBits_zero_f32]
  have hc : FloatOps.cmpf (F := Ideal) (φ := .f32) .ogt GcnNorm.nLit 0 = 1#1 := by
    show Ideal.cmp .ogt GcnNorm.nLit 0 = 1#1
    unfold Ideal.cmp
    simp only [nLit_pos, decide_true]
    rfl
  rw [hc, select_one]
  show Ideal.div (Host.reduceAdd (F := Ideal) (mulf (devV h) (devV h)) (constant S_ .f32 0x00000000#32) reducesTo_S100000x64_S64_d0 h_S_ (ix1 q))
      (broadcastInDim S64 ![] bcast_S_S64 (cntV (F := Ideal)) (ix1 q)) = _
  rw [reduce0_apply, broadcastInDim_scalar_apply, cntV_apply]
  simp only [mulf_apply, devV_apply]

/-! ### The normalisation -/

theorem normV_apply (h : FVec Ideal S100000x64 .f32) (x7 x8 : FVec Ideal S64 .f32) (r : Fin 100000) (q : Fin 64) :
    normV h x7 x8 (ix2 r q)
      = GcnNorm.outR (fun r q => h (ix2 r q)) (fun q => x7 (ix1 q)) (fun q => x8 (ix1 q)) r q := by
  unfold normV GcnNorm.outR
  simp only [addf_apply, mulf_apply, subf_apply, rowB_apply]
  show (_ - _) * Ideal.rsqrt (varV h (ix1 q) + chanC (F := Ideal) 0x3727C5AC#32 (ix1 q)) * _ + _ = _
  rw [meanV_apply, varV_apply, chanC_apply]

end Value

/-- At the extended reals the reference's result at (r, q) is the normalised activation with the centred variance. -/
theorem value (x0 : FVec Ideal S100000x64 .f32) (x1 x2 : IVec S1600000 32) (x3 : FVec Ideal S64x64 .f32) (x4 : FVec Ideal S64 .f32)
    (x5 : FVec Ideal S64x64 .f32) (x6 x7 x8 : FVec Ideal S64 .f32) (r : Fin 100000) (q : Fin 64) :
    refOut (F := Ideal) x0 x1 x2 x3 x4 x5 x6 x7 x8 (ix2 r q)
      = GcnNorm.outR
          (GcnNorm.act (fun r k => aggR (F := Ideal) x0 x1 x2 (ix2 r k)) (fun r k => x0 (ix2 r k)) (fun k q => x3 (ix2 k q))
            (fun k q => x5 (ix2 k q)) (fun q => x4 (ix1 q)) (fun q => x6 (ix1 q)))
          (fun q => x7 (ix1 q)) (fun q => x8 (ix1 q)) r q := by
  unfold refOut
  rw [normV_apply]
  have hH : (fun r q => actV (aggR (F := Ideal) x0 x1 x2) x0 x3 x4 x5 x6 (ix2 r q))
      = GcnNorm.act (fun r k => aggR (F := Ideal) x0 x1 x2 (ix2 r k)) (fun r k => x0 (ix2 r k)) (fun k q => x3 (ix2 k q))
          (fun k q => x5 (ix2 k q)) (fun q => x4 (ix1 q)) (fun q => x6 (ix1 q)) :=
    funext fun r => funext fun q => actV_apply _ _ _ _ _ _ r q
  rw [hH]

end Cert.ReferenceIdeal.RefV

end
-- ==== Proof.lean ====
/-
  A graph-convolution layer with batch normalisation: a Pallas kernel pair against its jnp reference, over the
  extended reals.

  Both programs form the neighbourhood sums by the same host gather and scatter-add, then the activation
      act = max (agg · W + b) 0 + max (feats · Wr + br) 0 ,
  then normalise every channel over the 100000 nodes:  (act − μ) · rsqrt (σ² + ε) · γ + β .
  The kernel program computes act block by block (20 blocks of 5000 rows) while accumulating per channel the sum and the
  sum of squares, and takes the variance in one pass,  σ² = (∑ act²) / N − μ² ;  the reference takes the centred form
  σ² = (∑ (act − μ)²) / N .  Blocking and the order of the sums do not matter over the extended reals (addition there is
  commutative and associative); the two variances agree once every activation is a real number, which the
  precondition (every float input finite) gives: finite sums of finite products, and maxima with zero, are finite.

  The frames of the two kernel programs are the generated ones; the reference's frame is its run with the result
  dropped; the idealisation rewrote nothing, so `preserves` is trivial.
-/
import proofs.«158067_j1219770712797_1_alg».proof.Defs
import proofs.«158067_j1219770712797_1_alg».proof.Proof.Gen.Kernel
import proofs.«158067_j1219770712797_1_alg».proof.Proof.Gen.Kernel.Frame
import proofs.«158067_j1219770712797_1_alg».proof.Proof.Gen.KernelIdeal
import proofs.«158067_j1219770712797_1_alg».proof.Proof.Gen.KernelIdeal.Frame
import proofs.«158067_j1219770712797_1_alg».proof.Proof.Gen.ReferenceIdeal
import proofs.«158067_j1219770712797_1_alg».proof.Proof.Gen.Pre_finite_inputs
import proofs.«158067_j1219770712797_1_alg».proof.Proof.Spec
import proofs.«158067_j1219770712797_1_alg».proof.Proof.Fin
import proofs.«158067_j1219770712797_1_alg».proof.Proof.KRun
import proofs.«158067_j1219770712797_1_alg».proof.Proof.KValue
import proofs.«158067_j1219770712797_1_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem
open Idealize.ShloMosaic.ValueIdx
open GcnNorm

/-- A scatter-add of real updates into a real array is real: each entry is its own plus a finite sum of updates. -/
theorem scatterAdd_isR {s si su : Shape} {w : Nat} (d : ScatterDims s si su) (x : FVec Ideal s .f32) (idx : IVec si w)
    (upd : FVec Ideal su .f32) (hx : ∀ i, IsR (x i)) (hu : ∀ j, IsR (upd j)) (i : s.Idx) :
    IsR (Host.scatterAdd d x idx upd i) := by
  show IsR (Ideal.hostScatterAdd d x idx upd i)
  unfold Ideal.hostScatterAdd
  exact (hx i).add (IsR.sum _ _ fun j _ => hu j)

/-- With real features the neighbourhood sums are real: each is zero plus a finite sum of gathered feature entries. -/
theorem agg_isR (feats : FVec Ideal Cert.KernelIdeal.S100000x64 .f32) (src dst : IVec Cert.KernelIdeal.S1600000 32)
    (hf : ∀ i, IsR (feats i)) (i : Cert.KernelIdeal.S100000x64.Idx) :
    IsR (Cert.KernelIdeal.HostV.aggK (F := Ideal) feats src dst i) := by
  refine scatterAdd_isR _ _ _ _ (fun i => ?_) (fun j => ?_) i
  · show IsR (Ideal.ofBits .f32 0x00000000#32)
    rw [Ideal.ofBits_zero_f32]
    exact IsR.zero
  · exact hf _

/-- The two programs spell the neighbourhood sums with the same operations. -/
theorem agg_eq (feats : FVec Ideal Cert.KernelIdeal.S100000x64 .f32) (src dst : IVec Cert.KernelIdeal.S1600000 32) :
    Cert.ReferenceIdeal.RefV.aggR (F := Ideal) feats src dst = Cert.KernelIdeal.HostV.aggK (F := Ideal) feats src dst := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefV.run (F := Ideal) m ρ)

theorem preserves : Cert.preserves_Kernel_KernelIdeal := trivial

/-- From memories agreeing on the arguments both programs end at the same normalised activations. -/
theorem algebraic : Cert.algebraic_KernelIdeal_ReferenceIdeal := by
  intro m ρ m' ρ' hpre hagree
  refine ⟨fun c => Cert.KernelIdeal.Gen.W4 m ρ c (Proc.devRef .tc Cert.KernelIdeal.main_v28),
    Cert.KernelIdeal.RunV.run (F := Ideal) m ρ, ?_⟩
  refine (θ_run Cert.ReferenceIdeal.defs _ _).mono (fun _ h c => ⟨(h c).1.trans ?_, (h c).2⟩)
    (Cert.ReferenceIdeal.RefV.run (F := Ideal) m' ρ')
  obtain ⟨a0, a1, a2, a3, a4, a5, a6, a7, a8⟩ := hagree c
  rw [a0, a1, a2, a3, a4, a5, a6, a7, a8]
  obtain ⟨f0, f3, f4, f5, f6, f7, f8⟩ := Cert.FinV.finite_of_pre _ _ _ _ _ _ _ _ _ (hpre c)
  funext i
  obtain ⟨r, q, rfl⟩ : ∃ (r : Fin 100000) (q : Fin 64), i = ix2 r q := ⟨i 0, i 1, eq_ix2 i⟩
  have hh : ∀ r q, IsR (Cert.KernelIdeal.KV.hK m c r q) := fun r q =>
    act_isR _ _ _ _ _ _ (fun r k => agg_isR _ _ _ f0 _) (fun r k => f0 _) (fun k q => f3 _) (fun k q => f5 _)
      (fun q => f4 _) (fun q => f6 _) r q
  refine (Cert.ReferenceIdeal.RefV.value _ _ _ _ _ _ _ _ _ r q).trans ?_
  refine Eq.trans ?_ (Cert.KernelIdeal.KV.value m ρ c r q).symm
  rw [outK_eq_outR _ hh]
  unfold Cert.KernelIdeal.KV.hK
  rw [agg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
